-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x36 : Shape := ⟨2, ![524288, 36]⟩
abbrev S32x36 : Shape := ⟨2, ![32, 36]⟩
abbrev S32 : Shape := ⟨1, ![32]⟩
abbrev S152x32 : Shape := ⟨2, ![152, 32]⟩
abbrev S80x2 : Shape := ⟨2, ![80, 2]⟩
abbrev S80 : Shape := ⟨1, ![80]⟩
abbrev S8 : Shape := ⟨1, ![8]⟩
abbrev S64 : Shape := ⟨1, ![64]⟩
abbrev S32x64 : Shape := ⟨2, ![32, 64]⟩
abbrev S_ : Shape := ⟨0, ![]⟩

class Facts : Prop where
  bcast_S_S524288x36 : S_.BroadcastsInDim S524288x36 (![] : Fin 0 → Fin S524288x36.rank)
  reducesTo_S524288x36_S_d0_1 : S524288x36.ReducesTo [0, 1] S_
  h_S_ : 0 < S_.numel
  bcast_S_S32x36 : S_.BroadcastsInDim S32x36 (![] : Fin 0 → Fin S32x36.rank)
  reducesTo_S32x36_S_d0_1 : S32x36.ReducesTo [0, 1] S_
  bcast_S_S32 : S_.BroadcastsInDim S32 (![] : Fin 0 → Fin S32.rank)
  reducesTo_S32_S_d0 : S32.ReducesTo [0] S_
  bcast_S_S152x32 : S_.BroadcastsInDim S152x32 (![] : Fin 0 → Fin S152x32.rank)
  reducesTo_S152x32_S_d0_1 : S152x32.ReducesTo [0, 1] S_
  bcast_S_S80x2 : S_.BroadcastsInDim S80x2 (![] : Fin 0 → Fin S80x2.rank)
  reducesTo_S80x2_S_d0_1 : S80x2.ReducesTo [0, 1] S_
  bcast_S_S80 : S_.BroadcastsInDim S80 (![] : Fin 0 → Fin S80.rank)
  reducesTo_S80_S_d0 : S80.ReducesTo [0] S_
  bcast_S_S8 : S_.BroadcastsInDim S8 (![] : Fin 0 → Fin S8.rank)
  reducesTo_S8_S_d0 : S8.ReducesTo [0] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  main_v53

def fn_part2 {F : FTy → Type} [FloatOps F] (main_arg7 : FVec F S8 .f32) (main_arg8 : FVec F S8 .f32) (main_arg9 : FVec F S64 .f32) (main_arg10 : FVec F S32x64 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S32x64 .f32 := Host.absf main_arg10
  let main_cst_18 : FVec F S_ .f32 := constant S_ .f32 0x7F800000#32
  let main_v50 : FVec F S32x64 .f32 := broadcastInDim S32x64 ![] bcast_S_S32x64 main_cst_18
  fn_part3 (F := F) main_v48 main_v49 main_v50

def fn_part1 {F : FTy → Type} [FloatOps F] (main_arg4 : FVec F S80x2 .f32) (main_arg5 : FVec F S80 .f32) (main_arg6 : FVec F S8 .f32) (main_arg7 : FVec F S8 .f32) (main_arg8 : FVec F S8 .f32) (main_arg9 : FVec F S64 .f32) (main_arg10 : FVec F S32x64 .f32) (main_v13 : IVec S_ 1) (main_v16 : IVec S152x32 1) : IVec S_ 1 :=
  let main_c_5 : IVec S_ 1 := constantI S_ 1 1#1
  let main_v17 : IVec S_ 1 := (fun x v => Host.reduce IntOp.andi x v reducesTo_S152x32_S_d0_1 h_S_) main_v16 main_c_5
  let main_v18 : IVec S_ 1 := andi main_v13 main_v17
  let main_v19 : FVec F S80x2 .f32 := Host.absf main_arg4
  let main_cst_6 : FVec F S_ .f32 := constant S_ .f32 0x7F800000#32
  let main_v20 : FVec F S80x2 .f32 := broadcastInDim S80x2 ![] bcast_S_S80x2 main_cst_6
  let main_v21 : IVec S80x2 1 := cmpf .olt main_v19 main_v20
  let main_c_7 : IVec S_ 1 := constantI S_ 1 1#1
  let main_v22 : IVec S_ 1 := (fun x v => Host.reduce IntOp.andi x v reducesTo_S80x2_S_d0_1 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x36 .f32) (main_arg1 : FVec F S32x36 .f32) (main_arg2 : FVec F S32 .f32) (main_arg3 : FVec F S152x32 .f32) (main_arg4 : FVec F S80x2 .f32) (main_arg5 : FVec F S80 .f32) (main_arg6 : FVec F S8 .f32) (main_arg7 : FVec F S8 .f32) (main_arg8 : FVec F S8 .f32) (main_arg9 : FVec F S64 .f32) (main_arg10 : FVec F S32x64 .f32) : IVec S_ 1 :=
  let main_v0 : FVec F S524288x36 .f32 := Host.absf main_arg0
  let main_cst : FVec F S_ .f32 := constant S_ .f32 0x7F800000#32
  let main_v1 : FVec F S524288x36 .f32 := broadcastInDim S524288x36 ![] bcast_S_S524288x36 main_cst
  let main_v2 : IVec S524288x36 1 := cmpf .olt main_v0 main_v1
  let main_c : IVec S_ 1 := constantI S_ 1 1#1
  let main_v3 : IVec S_ 1 := (fun x v => Host.reduce IntOp.andi x v reducesTo_S524288x36_S_d0_1 h_S_) main_v2 main_c
  let main_v4 : FVec F S32x36 .f32 := Host.absf main_arg1
  let main_cst_0 : FVec F S_ .f32 := constant S_ .f32 0x7F800000#32
  let main_v5 : FVec F S32x36 .f32 := broadcastInDim S32x36 ![] bcast_S_S32x36 main_cst_0
  let main_v6 : IVec S32x36 1 := cmpf .olt main_v4 main_v5
  let main_c_1 : IVec S_ 1 := constantI S_ 1 1#1
  let main_v7 : IVec S_ 1 := (fun x v => Host.reduce IntOp.andi x v reducesTo_S32x36_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S152x32 .f32 := Host.absf main_arg3
  let main_cst_4 : FVec F S_ .f32 := constant S_ .f32 0x7F800000#32
  let main_v15 : FVec F S152x32 .f32 := broadcastInDim S152x32 ![] bcast_S_S152x32 main_cst_4
  let main_v16 : IVec S152x32 1 := cmpf .olt main_v14 main_v15
  fn_part1 (F := F) main_arg4 main_arg5 main_arg6 main_arg7 main_arg8 main_arg9 main_arg10 main_v13 main_v16
-- ==== Kernel.lean ====
abbrev S524288x36 : Shape := ⟨2, ![524288, 36]⟩
abbrev S32x36 : Shape := ⟨2, ![32, 36]⟩
abbrev S32 : Shape := ⟨1, ![32]⟩
abbrev S152x32 : Shape := ⟨2, ![152, 32]⟩
abbrev S80x2 : Shape := ⟨2, ![80, 2]⟩
abbrev S80 : Shape := ⟨1, ![80]⟩
abbrev S8 : Shape := ⟨1, ![8]⟩
abbrev S64 : Shape := ⟨1, ![64]⟩
abbrev S32x64 : Shape := ⟨2, ![32, 64]⟩
abbrev S36x32 : Shape := ⟨2, ![36, 32]⟩
abbrev S32x152 : Shape := ⟨2, ![32, 152]⟩
abbrev S64x32 : Shape := ⟨2, ![64, 32]⟩
abbrev S80x1 : Shape := ⟨2, ![80, 1]⟩
abbrev S8x8 : Shape := ⟨2, ![8, 8]⟩
abbrev S_ : Shape := ⟨0, ![]⟩
abbrev S1x8 : Shape := ⟨2, ![1, 8]⟩
abbrev S8x1x8x1 : Shape := ⟨4, ![8, 1, 8, 1]⟩
abbrev S1x1x1x8 : Shape := ⟨4, ![1, 1, 1, 8]⟩
abbrev S8x1x8x8 : Shape := ⟨4, ![8, 1, 8, 8]⟩
abbrev S8x64 : Shape := ⟨2, ![8, 64]⟩
abbrev S1x32 : Shape := ⟨2, ![1, 32]⟩
abbrev S1x80 : Shape := ⟨2, ![1, 80]⟩
abbrev S1x64 : Shape := ⟨2, ![1, 64]⟩
abbrev S524288x32 : Shape := ⟨2, ![524288, 32]⟩
abbrev S8192x36 : Shape := ⟨2, ![8192, 36]⟩
abbrev S8192x32 : Shape := ⟨2, ![8192, 32]⟩
abbrev S8192x152 : Shape := ⟨2, ![8192, 152]⟩
abbrev S8192x64 : Shape := ⟨2, ![8192, 64]⟩
abbrev S8192x80 : Shape := ⟨2, ![8192, 80]⟩
abbrev S8192x8 : Shape := ⟨2, ![8192, 8]⟩
abbrev S8192 : Shape := ⟨1, ![8192]⟩
abbrev S8192x1 : Shape := ⟨2, ![8192, 1]⟩

abbrev nBuf : Space → Nat
  | .hbm => 40
  | .vmem => 14
  | .smem => 0
  | _ => 0

abbrev bufTy : (tb : Table) → Fin (tcTables nBuf tb) → BufTy
  | .hbm, ⟨0, _⟩ => ⟨S524288x36, .f32⟩
  | .hbm, ⟨1, _⟩ => ⟨S32x36, .f32⟩
  | .hbm, ⟨2, _⟩ => ⟨S32, .f32⟩
  | .hbm, ⟨3, _⟩ => ⟨S152x32, .f32⟩
  | .hbm, ⟨4, _⟩ => ⟨S80x2, .f32⟩
  | .hbm, ⟨5, _⟩ => ⟨S80, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S64, .f32⟩
  | .hbm, ⟨10, _⟩ => ⟨S32x64, .f32⟩
  | .hbm, ⟨11, _⟩ => ⟨S36x32, .f32⟩
  | .hbm, ⟨12, _⟩ => ⟨S32x152, .f32⟩
  | .hbm, ⟨13, _⟩ => ⟨S64x32, .f32⟩
  | .hbm, ⟨14, _⟩ => ⟨S80x1, .f32⟩
  | .hbm, ⟨15, _⟩ => ⟨S80, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S_, .f32⟩
  | .hbm, ⟨24, _⟩ => ⟨S1x8, .f32⟩
  | .hbm, ⟨25, _⟩ => ⟨S8x1x8x1, .f32⟩
  | .hbm, ⟨26, _⟩ => ⟨S1x1x1x8, .f32⟩
  | .hbm, ⟨27, _⟩ => ⟨S8x1x8x8, .f32⟩
  | .hbm, ⟨28, _⟩ => ⟨S8x1x8x8, .f32⟩
  | .hbm, ⟨29, _⟩ => ⟨S8x1x8x8, .f32⟩
  | .hbm, ⟨30, _⟩ => ⟨S8x64, .f32⟩
  | .hbm, ⟨31, _⟩ => ⟨S8x8, .f32⟩
  | .hbm, ⟨32, _⟩ => ⟨S64, .f32⟩
  | .hbm, ⟨33, _⟩ => ⟨S1x32, .f32⟩
  | .hbm, ⟨34, _⟩ => ⟨S1x80, .f32⟩
  | .hbm, ⟨35, _⟩ => ⟨S1x80, .f32⟩
  | .hbm, ⟨36, _⟩ => ⟨S1x8, .f32⟩
  | .hbm, ⟨37, _⟩ => ⟨S1x64, .f32⟩
  | .hbm, ⟨38, _⟩ => ⟨S1x64, .f32⟩
  | .hbm, ⟨39, _⟩ => ⟨S524288x32, .f32⟩
  | .local _ .vmem, ⟨0, _⟩ => ⟨S8192x36, .f32⟩
  | .local _ .vmem, ⟨1, _⟩ => ⟨S8192x36, .f32⟩
  | .local _ .vmem, ⟨2, _⟩ => ⟨S36x32, .f32⟩
  | .local _ .vmem, ⟨3, _⟩ => ⟨S1x32, .f32⟩
  | .local _ .vmem, ⟨4, _⟩ => ⟨S32x152, .f32⟩
  | .local _ .vmem, ⟨5, _⟩ => ⟨S1x80, .f32⟩
  | .local _ .vmem, ⟨6, _⟩ => ⟨S1x80, .f32⟩
  | .local _ .vmem, ⟨7, _⟩ => ⟨S1x8, .f32⟩
  | .local _ .vmem, ⟨8, _⟩ => ⟨S8x64, .f32⟩
  | .local _ .vmem, ⟨9, _⟩ => ⟨S1x64, .f32⟩
  | .local _ .vmem, ⟨10, _⟩ => ⟨S1x64, .f32⟩
  | .local _ .vmem, ⟨11, _⟩ => ⟨S64x32, .f32⟩
  | .local _ .vmem, ⟨12, _⟩ => ⟨S8192x32, .f32⟩
  | .local _ .vmem, ⟨13, _⟩ => ⟨S8192x32, .f32⟩
  | _, _ => ⟨S524288x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S32x36_S36x32_1_0 : S32x36.Transposes [1, 0] S36x32
  transposes_S152x32_S32x152_1_0 : S152x32.Transposes [1, 0] S32x152
  transposes_S32x64_S64x32_1_0 : S32x64.Transposes [1, 0] S64x32
  slices_S80x2_S80x1_0_1 : S80x2.Slices ![0, 1] S80x1
  shapeCasts_S80x1_S80 : S80x1.ShapeCasts S80
  bcast_S_S8x8 : S_.BroadcastsInDim S8x8 (![] : Fin 0 → Fin S8x8.rank)
  bcast_S_S1x8 : S_.BroadcastsInDim S1x8 (![] : Fin 0 → Fin S1x8.rank)
  bcast_S8x8_S8x1x8x1_0_2 : S8x8.BroadcastsInDim S8x1x8x1 (![0, 2] : Fin 2 → Fin S8x1x8x1.rank)
  bcast_S1x8_S1x1x1x8_1_3 : S1x8.BroadcastsInDim S1x1x1x8 (![1, 3] : Fin 2 → Fin S1x1x1x8.rank)
  bcast_S8x1x8x1_S8x1x8x8_0_1_2_3 : S8x1x8x1.BroadcastsInDim S8x1x8x8 (![0, 1, 2, 3] : Fin 4 → Fin S8x1x8x8.rank)
  bcast_S1x1x1x8_S8x1x8x8_0_1_2_3 : S1x1x1x8.BroadcastsInDim S8x1x8x8 (![0, 1, 2, 3] : Fin 4 → Fin S8x1x8x8.rank)
  shapeCasts_S8x1x8x8_S8x64 : S8x1x8x8.ShapeCasts S8x64
  bcast_S8_S8x8_0 : S8.BroadcastsInDim S8x8 (![0] : Fin 1 → Fin S8x8.rank)
  shapeCasts_S8x8_S64 : S8x8.ShapeCasts S64
  shapeCasts_S32_S1x32 : S32.ShapeCasts S1x32
  shapeCasts_S80_S1x80 : S80.ShapeCasts S1x80
  shapeCasts_S8_S1x8 : S8.ShapeCasts S1x8
  shapeCasts_S64_S1x64 : S64.ShapeCasts S1x64
  inb_S8192x36_S8192x36_0_0 : ∀ a, (![0, 0] : Fin 2 → Nat) a + S8192x36.size a ≤ S8192x36.size a
  h_S8192x36 : 0 < S8192x36.numel
  inb_S36x32_S36x32_0_0 : ∀ a, (![0, 0] : Fin 2 → Nat) a + S36x32.size a ≤ S36x32.size a
  h_S36x32 : 0 < S36x32.numel
  shapeCasts_S36x32_S36x32 : S36x32.ShapeCasts S36x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x152_S32x152_0_0 : ∀ a, (![0, 0] : Fin 2 → Nat) a + S32x152.size a ≤ S32x152.size a
  h_S32x152 : 0 < S32x152.numel
  shapeCasts_S32x152_S32x152 : S32x152.ShapeCasts S32x152
  slices_S8192x152_o0_0_S8192x64 : S8192x152.Slices ![0, 0] S8192x64
  slices_S8192x152_o0_64_S8192x80 : S8192x152.Slices ![0, 64] S8192x80
  slices_S8192x152_o0_144_S8192x8 : S8192x152.Slices ![0, 144] S8192x8
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S8192x80 : S1x80.Broadcasts S8192x80
  slices_S8192x80_o0_0_S8192x64 : S8192x80.Slices ![0, 0] S8192x64
  slices_S8192x80_o0_64_S8192x8 : S8192x80.Slices ![0, 64] S8192x8
  slices_S8192x80_o0_72_S8192x8 : S8192x80.Slices ![0, 72] S8192x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  reduces_S8192x8_S8192 : S8192x8.Reduces [1] S8192
  shapeCasts_S8192_S8192x1 : S8192.ShapeCasts S8192x1
  broadcasts_S8192x1_S8192x8 : S8192x1.Broadcasts S8192x8
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  broadcasts_S8192x1_S8192x64 : S8192x1.Broadcasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  reduces_S8192x32_S8192 : S8192x32.Reduces [1] S8192
  broadcasts_S8192x1_S8192x32 : S8192x1.Broadcasts S8192x32
  inb_S8192x32_S8192x32_0_0 : ∀ a, (![0, 0] : Fin 2 → Nat) a + S8192x32.size a ≤ S8192x32.size a
  h_S8192x32 : 0 < S8192x32.numel
  dot_S8192x36_S36x32_S8192x32_1_0_0_1_n_n_wf : DotDims.WF S8192x36 S36x32 S8192x32 [1] [0] [0] [1] [] []
  dot_S8192x32_S32x152_S8192x152_1_0_0_1_n_n_wf : DotDims.WF S8192x32 S32x152 S8192x152 [1] [0] [0] [1] [] []
  dot_S8192x8_S8x64_S8192x64_1_0_0_1_n_n_wf : DotDims.WF S8192x8 S8x64 S8192x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x36.size a ≤ S524288x36.size a
  hwx0_0 : ∀ i : grid0.Coords, EltTy.bits .f32 = 32 ∨ (Rect.block (s := S524288x36) S8192x36.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x32.size a ≤ S36x32.size a
  hwx0_1 : ∀ i : grid0.Coords, EltTy.bits .f32 = 32 ∨ (Rect.block (s := S36x32) S36x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x152.size a ≤ S32x152.size a
  hwx0_3 : ∀ i : grid0.Coords, EltTy.bits .f32 = 32 ∨ (Rect.block (s := S32x152) S32x152.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S8x64.size a
  hwx0_7 : ∀ i : grid0.Coords, EltTy.bits .f32 = 32 ∨ (Rect.block (s := S8x64) S8x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .f32 = 32 ∨ (Rect.block (s := S64x32) S64x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x32.size a ≤ S524288x32.size a
  hwx0_11 : ∀ i : grid0.Coords, EltTy.bits .f32 = 32 ∨ (Rect.block (s := S524288x32) S8192x32.size (cc0_transform_11 i) (hinb0_11 i)).WholeWords (EltTy.packing .f32)

variable [Facts₀]

def dot_S8192x36_S36x32_S8192x32_1_0_0_1_n_n : DotDims S8192x36 S36x32 S8192x32 where
  lhsContracting := [1]
  rhsContracting := [0]
  lhsNonContracting := [0]
  rhsNonContracting := [1]
  lhsBatch := []
  rhsBatch := []
  wf := dot_S8192x36_S36x32_S8192x32_1_0_0_1_n_n_wf
def dot_S8192x32_S32x152_S8192x152_1_0_0_1_n_n : DotDims S8192x32 S32x152 S8192x152 where
  lhsContracting := [1]
  rhsContracting := [0]
  lhsNonContracting := [0]
  rhsNonContracting := [1]
  lhsBatch := []
  rhsBatch := []
  wf := dot_S8192x32_S32x152_S8192x152_1_0_0_1_n_n_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg0) S8192x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S36x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x152.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S8192x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x36 : Shape := ⟨2, ![524288, 36]⟩
abbrev S32x36 : Shape := ⟨2, ![32, 36]⟩
abbrev S32 : Shape := ⟨1, ![32]⟩
abbrev S152x32 : Shape := ⟨2, ![152, 32]⟩
abbrev S80x2 : Shape := ⟨2, ![80, 2]⟩
abbrev S80 : Shape := ⟨1, ![80]⟩
abbrev S8 : Shape := ⟨1, ![8]⟩
abbrev S64 : Shape := ⟨1, ![64]⟩
abbrev S32x64 : Shape := ⟨2, ![32, 64]⟩
abbrev S36x32 : Shape := ⟨2, ![36, 32]⟩
abbrev S524288x32 : Shape := ⟨2, ![524288, 32]⟩
abbrev S1x32 : Shape := ⟨2, ![1, 32]⟩
abbrev S32x152 : Shape := ⟨2, ![32, 152]⟩
abbrev S524288x152 : Shape := ⟨2, ![524288, 152]⟩
abbrev S524288x64 : Shape := ⟨2, ![524288, 64]⟩
abbrev S524288x80 : Shape := ⟨2, ![524288, 80]⟩
abbrev S524288x8 : Shape := ⟨2, ![524288, 8]⟩
abbrev S80x1 : Shape := ⟨2, ![80, 1]⟩
abbrev S1x80 : Shape := ⟨2, ![1, 80]⟩
abbrev S_ : Shape := ⟨0, ![]⟩
abbrev S524288x8x8 : Shape := ⟨3, ![524288, 8, 8]⟩
abbrev S1x8 : Shape := ⟨2, ![1, 8]⟩
abbrev S524288 : Shape := ⟨1, ![524288]⟩
abbrev S524288x1 : Shape := ⟨2, ![524288, 1]⟩
abbrev S524288x8x1 : Shape := ⟨3, ![524288, 8, 1]⟩
abbrev S1x8x1 : Shape := ⟨3, ![1, 8, 1]⟩
abbrev S1x64 : Shape := ⟨2, ![1, 64]⟩
abbrev S64x32 : Shape := ⟨2, ![64, 32]⟩

abbrev nBuf : Space → Nat
  | .hbm => 115
  | .vmem => 0
  | .smem => 0
  | _ => 0

abbrev bufTy : (tb : Table) → Fin (tcTables nBuf tb) → BufTy
  | .hbm, ⟨0, _⟩ => ⟨S524288x36, .f32⟩
  | .hbm, ⟨1, _⟩ => ⟨S32x36, .f32⟩
  | .hbm, ⟨2, _⟩ => ⟨S32, .f32⟩
  | .hbm, ⟨3, _⟩ => ⟨S152x32, .f32⟩
  | .hbm, ⟨4, _⟩ => ⟨S80x2, .f32⟩
  | .hbm, ⟨5, _⟩ => ⟨S80, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S64, .f32⟩
  | .hbm, ⟨10, _⟩ => ⟨S32x64, .f32⟩
  | .hbm, ⟨11, _⟩ => ⟨S36x32, .f32⟩
  | .hbm, ⟨12, _⟩ => ⟨S524288x32, .f32⟩
  | .hbm, ⟨13, _⟩ => ⟨S1x32, .f32⟩
  | .hbm, ⟨14, _⟩ => ⟨S524288x32, .f32⟩
  | .hbm, ⟨15, _⟩ => ⟨S524288x32, .f32⟩
  | .hbm, ⟨16, _⟩ => ⟨S32x152, .f32⟩
  | .hbm, ⟨17, _⟩ => ⟨S524288x152, .f32⟩
  | .hbm, ⟨18, _⟩ => ⟨S524288x64, .f32⟩
  | .hbm, ⟨19, _⟩ => ⟨S524288x80, .f32⟩
  | .hbm, ⟨20, _⟩ => ⟨S524288x8, .f32⟩
  | .hbm, ⟨21, _⟩ => ⟨S80x1, .f32⟩
  | .hbm, ⟨22, _⟩ => ⟨S80, .f32⟩
  | .hbm, ⟨23, _⟩ => ⟨S1x80, .f32⟩
  | .hbm, ⟨24, _⟩ => ⟨S524288x80, .f32⟩
  | .hbm, ⟨25, _⟩ => ⟨S524288x80, .f32⟩
  | .hbm, ⟨26, _⟩ => ⟨S1x80, .f32⟩
  | .hbm, ⟨27, _⟩ => ⟨S524288x80, .f32⟩
  | .hbm, ⟨28, _⟩ => ⟨S524288x80, .f32⟩
  | .hbm, ⟨29, _⟩ => ⟨S524288x80, .f32⟩
  | .hbm, ⟨30, _⟩ => ⟨S524288x80, .f32⟩
  | .hbm, ⟨31, _⟩ => ⟨S_, .f32⟩
  | .hbm, ⟨32, _⟩ => ⟨S524288x80, .f32⟩
  | .hbm, ⟨33, _⟩ => ⟨S524288x80, .f32⟩
  | .hbm, ⟨34, _⟩ => ⟨S_, .f32⟩
  | .hbm, ⟨35, _⟩ => ⟨S524288x80, .f32⟩
  | .hbm, ⟨36, _⟩ => ⟨S524288x80, .f32⟩
  | .hbm, ⟨37, _⟩ => ⟨S524288x80, .f32⟩
  | .hbm, ⟨38, _⟩ => ⟨S524288x64, .f32⟩
  | .hbm, ⟨39, _⟩ => ⟨S524288x8x8, .f32⟩
  | .hbm, ⟨40, _⟩ => ⟨S524288x8, .f32⟩
  | .hbm, ⟨41, _⟩ => ⟨S524288x8, .f32⟩
  | .hbm, ⟨42, _⟩ => ⟨S1x8, .f32⟩
  | .hbm, ⟨43, _⟩ => ⟨S524288x8, .f32⟩
  | .hbm, ⟨44, _⟩ => ⟨S524288x8, .f32⟩
  | .hbm, ⟨45, _⟩ => ⟨S_, .f32⟩
  | .hbm, ⟨46, _⟩ => ⟨S524288x8, .f32⟩
  | .hbm, ⟨47, _⟩ => ⟨S524288x8, .f32⟩
  | .hbm, ⟨48, _⟩ => ⟨S524288x8, .f32⟩
  | .hbm, ⟨49, _⟩ => ⟨S524288x8, .f32⟩
  | .hbm, ⟨50, _⟩ => ⟨S524288x8, .i1⟩
  | .hbm, ⟨51, _⟩ => ⟨S524288x8, .f32⟩
  | .hbm, ⟨52, _⟩ => ⟨S524288x8, .f32⟩
  | .hbm, ⟨53, _⟩ => ⟨S524288x8, .f32⟩
  | .hbm, ⟨54, _⟩ => ⟨S524288x8, .f32⟩
  | .hbm, ⟨55, _⟩ => ⟨S524288x8, .f32⟩
  | .hbm, ⟨56, _⟩ => ⟨S524288x8, .f32⟩
  | .hbm, ⟨57, _⟩ => ⟨S524288x8, .f32⟩
  | .hbm, ⟨58, _⟩ => ⟨S524288x8, .f32⟩
  | .hbm, ⟨59, _⟩ => ⟨S524288x8, .f32⟩
  | .hbm, ⟨60, _⟩ => ⟨S_, .f32⟩
  | .hbm, ⟨61, _⟩ => ⟨S524288, .f32⟩
  | .hbm, ⟨62, _⟩ => ⟨S524288x1, .f32⟩
  | .hbm, ⟨63, _⟩ => ⟨S524288x8, .f32⟩
  | .hbm, ⟨64, _⟩ => ⟨S524288x8, .f32⟩
  | .hbm, ⟨65, _⟩ => ⟨S524288x8x1, .f32⟩
  | .hbm, ⟨66, _⟩ => ⟨S524288x8x8, .f32⟩
  | .hbm, ⟨67, _⟩ => ⟨S524288x8x8, .f32⟩
  | .hbm, ⟨68, _⟩ => ⟨S1x8x1, .f32⟩
  | .hbm, ⟨69, _⟩ => ⟨S524288x8x8, .f32⟩
  | .hbm, ⟨70, _⟩ => ⟨S524288x8x8, .f32⟩
  | .hbm, ⟨71, _⟩ => ⟨S524288x8x8, .f32⟩
  | .hbm, ⟨72, _⟩ => ⟨S524288x64, .f32⟩
  | .hbm, ⟨73, _⟩ => ⟨S524288x64, .f32⟩
  | .hbm, ⟨74, _⟩ => ⟨S524288x64, .f32⟩
  | .hbm, ⟨75, _⟩ => ⟨S_, .f32⟩
  | .hbm, ⟨76, _⟩ => ⟨S524288x64, .f32⟩
  | .hbm, ⟨77, _⟩ => ⟨S524288x64, .f32⟩
  | .hbm, ⟨78, _⟩ => ⟨S_, .f32⟩
  | .hbm, ⟨79, _⟩ => ⟨S524288x64, .f32⟩
  | .hbm, ⟨80, _⟩ => ⟨S524288x64, .f32⟩
  | .hbm, ⟨81, _⟩ => ⟨S524288x64, .f32⟩
  | .hbm, ⟨82, _⟩ => ⟨S524288x64, .f32⟩
  | .hbm, ⟨83, _⟩ => ⟨S524288x64, .f32⟩
  | .hbm, ⟨84, _⟩ => ⟨S_, .f32⟩
  | .hbm, ⟨85, _⟩ => ⟨S524288, .f32⟩
  | .hbm, ⟨86, _⟩ => ⟨S524288x1, .f32⟩
  | .hbm, ⟨87, _⟩ => ⟨S_, .f32⟩
  | .hbm, ⟨88, _⟩ => ⟨S524288x1, .f32⟩
  | .hbm, ⟨89, _⟩ => ⟨S524288x1, .f32⟩
  | .hbm, ⟨90, _⟩ => ⟨S_, .f32⟩
  | .hbm, ⟨91, _⟩ => ⟨S524288x1, .f32⟩
  | .hbm, ⟨92, _⟩ => ⟨S524288x1, .f32⟩
  | .hbm, ⟨93, _⟩ => ⟨S524288x1, .f32⟩
  | .hbm, ⟨94, _⟩ => ⟨S524288x64, .f32⟩
  | .hbm, ⟨95, _⟩ => ⟨S524288x64, .f32⟩
  | .hbm, ⟨96, _⟩ => ⟨S1x64, .f32⟩
  | .hbm, ⟨97, _⟩ => ⟨S524288x64, .f32⟩
  | .hbm, ⟨98, _⟩ => ⟨S524288x64, .f32⟩
  | .hbm, ⟨99, _⟩ => ⟨S64x32, .f32⟩
  | .hbm, ⟨100, _⟩ => ⟨S524288x32, .f32⟩
  | .hbm, ⟨101, _⟩ => ⟨S_, .f32⟩
  | .hbm, ⟨102, _⟩ => ⟨S524288, .f32⟩
  | .hbm, ⟨103, _⟩ => ⟨S_, .f32⟩
  | .hbm, ⟨104, _⟩ => ⟨S524288, .f32⟩
  | .hbm, ⟨105, _⟩ => ⟨S524288, .f32⟩
  | .hbm, ⟨106, _⟩ => ⟨S524288x1, .f32⟩
  | .hbm, ⟨107, _⟩ => ⟨S524288x32, .f32⟩
  | .hbm, ⟨108, _⟩ => ⟨S524288x32, .f32⟩
  | .hbm, ⟨109, _⟩ => ⟨S524288x32, .f32⟩
  | .hbm, ⟨110, _⟩ => ⟨S_, .f32⟩
  | .hbm, ⟨111, _⟩ => ⟨S524288, .f32⟩
  | .hbm, ⟨112, _⟩ => ⟨S524288x1, .f32⟩
  | .hbm, ⟨113, _⟩ => ⟨S524288x32, .f32⟩
  | .hbm, ⟨114, _⟩ => ⟨S524288x32, .f32⟩
  | _, _ => ⟨S524288x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v26 : Ref sig .tc := ⟨.hbm, 58, rfl⟩
abbrev main_v27 : Ref sig .tc := ⟨.hbm, 59, rfl⟩
abbrev main_cst : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_0 : Ref sig .tc := ⟨.hbm, 84, rfl⟩
abbrev main_v43 : Ref sig .tc := ⟨.hbm, 85, rfl⟩
abbrev main_v44 : Ref sig .tc := ⟨.hbm, 86, rfl⟩
abbrev main_cst_1 : Ref sig .tc := ⟨.hbm, 87, rfl⟩
abbrev main_v45 : Ref sig .tc := ⟨.hbm, 88, rfl⟩
abbrev main_v46 : Ref sig .tc := ⟨.hbm, 89, rfl⟩
abbrev main_cst_2 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_3 : Ref sig .tc := ⟨.hbm, 101, rfl⟩
abbrev main_v57 : Ref sig .tc := ⟨.hbm, 102, rfl⟩
abbrev main_cst_4 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩

abbrev nD : Nat := 1
abbrev τ : Topo := Topo.v7x

variable {F : FTy → Type} [FloatOps F]

class Facts₀ : Prop where
  transposes_S32x36_S36x32_1_0 : S32x36.Transposes [1, 0] S36x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  transposes_S152x32_S32x152_1_0 : S152x32.Transposes [1, 0] S32x152
  slices_S524288x152_S524288x64_0_0 : S524288x152.Slices ![0, 0] S524288x64
  slices_S524288x152_S524288x80_0_64 : S524288x152.Slices ![0, 64] S524288x80
  slices_S524288x152_S524288x8_0_144 : S524288x152.Slices ![0, 144] S524288x8
  slices_S80x2_S80x1_0_1 : S80x2.Slices ![0, 1] S80x1
  shapeCasts_S80x1_S80 : S80x1.ShapeCasts S80
  bcast_S80_S1x80_1 : S80.BroadcastsInDim S1x80 (![1] : Fin 1 → Fin S1x80.rank)
  bcast_S1x80_S524288x80_0_1 : S1x80.BroadcastsInDim S524288x80 (![0, 1] : Fin 2 → Fin S524288x80.rank)
  bcast_S_S524288x80 : S_.BroadcastsInDim S524288x80 (![] : Fin 0 → Fin S524288x80.rank)
  slices_S524288x80_S524288x64_0_0 : S524288x80.Slices ![0, 0] S524288x64
  shapeCasts_S524288x64_S524288x8x8 : S524288x64.ShapeCasts S524288x8x8
  slices_S524288x80_S524288x8_0_64 : S524288x80.Slices ![0, 64] S524288x8
  slices_S524288x80_S524288x8_0_72 : S524288x80.Slices ![0, 72] S524288x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  bcast_S_S524288x8 : S_.BroadcastsInDim S524288x8 (![] : Fin 0 → Fin S524288x8.rank)
  reducesTo_S524288x8_S524288_d1 : S524288x8.ReducesTo [1] S524288
  h_S_ : 0 < S_.numel
  bcast_S524288_S524288x1_0 : S524288.BroadcastsInDim S524288x1 (![0] : Fin 1 → Fin S524288x1.rank)
  bcast_S524288x1_S524288x8_0_1 : S524288x1.BroadcastsInDim S524288x8 (![0, 1] : Fin 2 → Fin S524288x8.rank)
  bcast_S524288x8_S524288x8x1_0_1 : S524288x8.BroadcastsInDim S524288x8x1 (![0, 1] : Fin 2 → Fin S524288x8x1.rank)
  bcast_S524288x8x1_S524288x8x8_0_1_2 : S524288x8x1.BroadcastsInDim S524288x8x8 (![0, 1, 2] : Fin 3 → Fin S524288x8x8.rank)
  bcast_S8_S1x8x1_1 : S8.BroadcastsInDim S1x8x1 (![1] : Fin 1 → Fin S1x8x1.rank)
  bcast_S1x8x1_S524288x8x8_0_1_2 : S1x8x1.BroadcastsInDim S524288x8x8 (![0, 1, 2] : Fin 3 → Fin S524288x8x8.rank)
  shapeCasts_S524288x8x8_S524288x64 : S524288x8x8.ShapeCasts S524288x64
  bcast_S_S524288x64 : S_.BroadcastsInDim S524288x64 (![] : Fin 0 → Fin S524288x64.rank)
  reducesTo_S524288x64_S524288_d1 : S524288x64.ReducesTo [1] S524288
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  transposes_S32x64_S64x32_1_0 : S32x64.Transposes [1, 0] S64x32
  reducesTo_S524288x32_S524288_d1 : S524288x32.ReducesTo [1] S524288
  bcast_S_S524288 : S_.BroadcastsInDim S524288 (![] : Fin 0 → Fin S524288.rank)
  bcast_S524288x1_S524288x32_0_1 : S524288x1.BroadcastsInDim S524288x32 (![0, 1] : Fin 2 → Fin S524288x32.rank)
  dot_S524288x36_S36x32_S524288x32_1_0_0_1_n_n_wf : DotDims.WF S524288x36 S36x32 S524288x32 [1] [0] [0] [1] [] []
  dot_S524288x32_S32x152_S524288x152_1_0_0_1_n_n_wf : DotDims.WF S524288x32 S32x152 S524288x152 [1] [0] [0] [1] [] []
  dot_S524288x64_S64x32_S524288x32_1_0_0_1_n_n_wf : DotDims.WF S524288x64 S64x32 S524288x32 [1] [0] [0] [1] [] []

variable [Facts₀]

def dot_S524288x36_S36x32_S524288x32_1_0_0_1_n_n : DotDims S524288x36 S36x32 S524288x32 where
  lhsContracting := [1]
  rhsContracting := [0]
  lhsNonContracting := [0]
  rhsNonContracting := [1]
  lhsBatch := []
  rhsBatch := []
  wf := dot_S524288x36_S36x32_S524288x32_1_0_0_1_n_n_wf
def dot_S524288x32_S32x152_S524288x152_1_0_0_1_n_n : DotDims S524288x32 S32x152 S524288x152 where
  lhsContracting := [1]
  rhsContracting := [0]
  lhsNonContracting := [0]
  rhsNonContracting := [1]
  lhsBatch := []
  rhsBatch := []
  wf := dot_S524288x32_S32x152_S524288x152_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf

class Facts : Prop extends Facts₀ where

variable [Facts]
-- ==== Proof.RowSpec.lean ====
/-
  One output row of the gated state-space block, as a function of one input row and the weights, on the
  extended reals.  A row `x` of 36 features is projected to 32 (`proj1`: a matrix product and a bias), then to
  152 (`proj2`), and the 152 are cut into a gate `z` (64), a convolved part (80) and a step part (8).  With a
  sequence of length one the causal convolution keeps only its last tap, so the convolved part is
  `silu (pre · w + b)` entry by entry; it is cut into `xh` (64 = 8 heads of 8), `B` (8) and `C` (8).  The step
  is `softplus (pre + bias)` per head, and with a zero initial state the scan of one step leaves, for head `h`,
  `y = xh · (dt_h · ⟨B, C⟩) + D_h · xh`.  The kernel computes the same `y` as `xh · (Σ_h s_h · E_{h,j} + D'_j)`
  with `E` the 0/1 matrix that repeats each head eight times and `D'` the skip weights repeated likewise: the two
  agree by distributivity, which on the extended reals needs the entries to be finite.  After that both sides
  gate by `silu z`, normalise by the root mean square over the 64 entries, scale, project to 32 logits and take
  the softmax (`tail`).
-/
import Idealize.ShloMosaic.PureOps.Ideal
import Idealize.ShloMosaic.PureOps.Ideal.Laws
import Mathlib.Algebra.BigOperators.Fin
import Idealize.ShloMosaic.Lib.ValueIdx

noncomputable section

namespace Cert.RowSpec

open Idealize.ShloMosaic

/-- The float words the two programs share, as extended reals. -/
abbrev w0 : EReal := Ideal.ofBits .f32 0x00000000#32
abbrev w64 : EReal := Ideal.ofBits .f32 0x42800000#32
abbrev wEps : EReal := Ideal.ofBits .f32 0x3727C5AC#32
abbrev wNegInf : EReal := Ideal.ofBits .f32 0xFF800000#32
abbrev w1 : EReal := Ideal.ofBits .f32 0x3F800000#32

/-! ## Positions inside the 152 projected features and the 80 convolved ones -/

/-- Feature `j` of the gate `z`: the first 64 of the 152. -/
def zPos (j : Fin 64) : Fin 152 := ⟨j.val, by omega⟩
/-- Convolved feature `j`: features 64 … 143 of the 152. -/
def convPos (j : Fin 80) : Fin 152 := ⟨64 + j.val, by omega⟩
/-- Step feature `h`: features 144 … 151 of the 152. -/
def stepPos (h : Fin 8) : Fin 152 := ⟨144 + h.val, by omega⟩
/-- `xh`'s entry `j` among the 80 convolved features: the first 64. -/
def xhPos (j : Fin 64) : Fin 80 := ⟨j.val, by omega⟩
/-- `B`'s entry `h`: convolved features 64 … 71. -/
def bPos (h : Fin 8) : Fin 80 := ⟨64 + h.val, by omega⟩
/-- `C`'s entry `h`: convolved features 72 … 79. -/
def cPos (h : Fin 8) : Fin 80 := ⟨72 + h.val, by omega⟩
/-- The head an inner feature belongs to: eight consecutive features per head. -/
def headOf (j : Fin 64) : Fin 8 := ⟨j.val / 8, by omega⟩

/-! ## The stages -/

/-- First projection: `x · W1 + b1`. -/
def proj1 (x : Fin 36 → EReal) (W1 : Fin 36 → Fin 32 → EReal) (b1 : Fin 32 → EReal) (a : Fin 32) : EReal :=
  (∑ k : Fin 36, x k * W1 k a) + b1 a

/-- Second projection: `u · W2`. -/
def proj2 (u : Fin 32 → EReal) (W2 : Fin 32 → Fin 152 → EReal) (j : Fin 152) : EReal :=
  ∑ a : Fin 32, u a * W2 a j

/-- `x · σ(x)`. -/
def silu (x : EReal) : EReal := x * Ideal.logistic x

/-- `log (1 + eˣ)` in its overflow-free form `max x 0 + log1p (e^{-|x|})`. -/
def softplus (x : EReal) : EReal := max x 0 + Ideal.log1p (Ideal.exp (-(max x (-x))))

/-- The convolved features of a row: last tap times the feature, plus the bias, through `silu`. -/
def conv (zx : Fin 152 → EReal) (cw cb : Fin 80 → EReal) (j : Fin 80) : EReal :=
  silu (zx (convPos j) * cw j + cb j)

/-- The step sizes of a row. -/
def step (zx : Fin 152 → EReal) (dtb : Fin 8 → EReal) (h : Fin 8) : EReal :=
  softplus (zx (stepPos h) + dtb h)

/-- `⟨B, C⟩` of a row. -/
def inner (B C : Fin 8 → EReal) : EReal := ∑ h : Fin 8, B h * C h

/-- What the kernel makes of `xh`: each entry times (the head scales spread by `E`, plus the spread skip weight). -/
def mixK (xh : Fin 64 → EReal) (s : Fin 8 → EReal) (Em : Fin 8 → Fin 64 → EReal) (Dx : Fin 64 → EReal)
    (j : Fin 64) : EReal :=
  xh j * ((∑ h : Fin 8, s h * Em h j) + Dx j)

/-- What the reference makes of `xh`: each entry times its head's scale, plus the head's skip weight times the entry. -/
def mixR (xh : Fin 64 → EReal) (s : Fin 8 → EReal) (D : Fin 8 → EReal) (j : Fin 64) : EReal :=
  xh j * s (headOf j) + D (headOf j) * xh j

/-- The gated entries. -/
def gated (y0 z : Fin 64 → EReal) (j : Fin 64) : EReal := y0 j * silu (z j)

/-- The reciprocal root of the mean square plus epsilon. -/
def rnorm (y1 : Fin 64 → EReal) : EReal :=
  Ideal.rsqrt (Ideal.div (∑ j : Fin 64, y1 j * y1 j) w64 + wEps)

/-- The 32 logits of a row. -/
def logits (y1 : Fin 64 → EReal) (nw : Fin 64 → EReal) (W3 : Fin 64 → Fin 32 → EReal) (q : Fin 32) : EReal :=
  ∑ j : Fin 64, (y1 j * rnorm y1 * nw j) * W3 j q

/-- The row maximum the softmax subtracts (taken from `-∞`, and once more against `-∞`, as both programs do). -/
def rowMax (o : Fin 32 → EReal) : EReal :=
  max wNegInf ((Finset.univ : Finset (Fin 32)).fold max wNegInf o)

/-- The softmax of the logits. -/
def softmax (o : Fin 32 → EReal) (q : Fin 32) : EReal :=
  Ideal.div (Ideal.exp (o q - rowMax o)) (∑ q' : Fin 32, Ideal.exp (o q' - rowMax o))

/-- Everything after the mix: gate, normalise, scale, project, softmax. -/
def tail (y0 z : Fin 64 → EReal) (nw : Fin 64 → EReal) (W3 : Fin 64 → Fin 32 → EReal) (q : Fin 32) : EReal :=
  softmax (logits (gated y0 z) nw W3) q

/-- The kernel's row. -/
def rowK (x : Fin 36 → EReal) (W1 : Fin 36 → Fin 32 → EReal) (b1 : Fin 32 → EReal) (W2 : Fin 32 → Fin 152 → EReal)
    (cw cb : Fin 80 → EReal) (dtb : Fin 8 → EReal) (Em : Fin 8 → Fin 64 → EReal) (Dx : Fin 64 → EReal)
    (nw : Fin 64 → EReal) (W3 : Fin 64 → Fin 32 → EReal) (q : Fin 32) : EReal :=
  tail (mixK (fun j => conv (proj2 (proj1 x W1 b1) W2) cw cb (xhPos j))
          (fun h => step (proj2 (proj1 x W1 b1) W2) dtb h
            * inner (fun h' => conv (proj2 (proj1 x W1 b1) W2) cw cb (bPos h')) (fun h' => conv (proj2 (proj1 x W1 b1) W2) cw cb (cPos h')))
          Em Dx)
    (fun j => proj2 (proj1 x W1 b1) W2 (zPos j)) nw W3 q

/-- The reference's row. -/
def rowR (x : Fin 36 → EReal) (W1 : Fin 36 → Fin 32 → EReal) (b1 : Fin 32 → EReal) (W2 : Fin 32 → Fin 152 → EReal)
    (cw cb : Fin 80 → EReal) (dtb : Fin 8 → EReal) (D : Fin 8 → EReal)
    (nw : Fin 64 → EReal) (W3 : Fin 64 → Fin 32 → EReal) (q : Fin 32) : EReal :=
  tail (mixR (fun j => conv (proj2 (proj1 x W1 b1) W2) cw cb (xhPos j))
          (fun h => step (proj2 (proj1 x W1 b1) W2) dtb h
            * inner (fun h' => conv (proj2 (proj1 x W1 b1) W2) cw cb (bPos h')) (fun h' => conv (proj2 (proj1 x W1 b1) W2) cw cb (cPos h')))
          D)
    (fun j => proj2 (proj1 x W1 b1) W2 (zPos j)) nw W3 q

/-! ## The two printed spellings of `softplus`

Both programs write `softplus t` as `logaddexp t 0`: a test `t - 0 ≠ t - 0` (never true of an extended real) selecting
`t + 0`, else `max t 0 + log1p (exp (-|t - 0|))`; the kernel spells the negation `0 - |·|`, the reference `-|·|`. -/

theorem w0_eq : w0 = 0 := Ideal.ofBits_zero_f32

theorem softplus_kernel_form (t : EReal) :
    Scalar.select (Ideal.cmp .one (t - w0) (t - w0)) (t + w0)
      (max t w0 + Ideal.log1p (Ideal.exp (w0 - max (t - w0) (-(t - w0))))) = softplus t := by
  have hc : Ideal.cmp .one (t - w0) (t - w0) = 0#1 := by simp [Ideal.cmp]
  rw [hc, ValueIdx.select_zero, w0_eq, sub_zero, zero_sub]
  rfl

theorem softplus_host_form (t : EReal) :
    Scalar.select (Ideal.cmp .une (t - w0) (t - w0)) (t + w0)
      (max t w0 + Ideal.log1p (Ideal.exp (-(max (t - w0) (-(t - w0)))))) = softplus t := by
  have hc : Ideal.cmp .une (t - w0) (t - w0) = 0#1 := by simp [Ideal.cmp]
  rw [hc, ValueIdx.select_zero, w0_eq, sub_zero]
  rfl

end Cert.RowSpec

end
-- ==== Proof.KernelProj.lean ====
import proofs.«158069_j36524401885833_1_alg».proof.Proof.RowSpec
import proofs.«158069_j36524401885833_1_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

namespace Cert.KernelRow

open Idealize.ShloMosaic Idealize.ShloMosaic.ValueIdx Cert.KernelIdeal Cert.KernelIdeal.Gen Cert.RowSpec

/-! ## The two matrix products read at an index

The contraction index set of each product has one axis; the sum over it is re-indexed to a sum over `Fin 36`
(resp. `Fin 32`), and the operand indices at output index `(p, c)` and contraction index `k` are `(p, k)` and `(k, c)`. -/

theorem lhs_d1_0 (i : S8192x32.Idx) (q : dot_S8192x36_S36x32_S8192x32_1_0_0_1_n_n.contr.Idx) :
    (dot_S8192x36_S36x32_S8192x32_1_0_0_1_n_n.lhsIdx i q 0).val = (i 0).val := by
  unfold DotDims.lhsIdx
  rw [dif_neg (show ¬(0 : Fin S8192x36.rank) ∈ dot_S8192x36_S36x32_S8192x32_1_0_0_1_n_n.lhsBatch by decide), dif_pos (show (0 : Fin S8192x36.rank) ∈ dot_S8192x36_S36x32_S8192x32_1_0_0_1_n_n.lhsNonContracting by decide)]
  rfl
theorem lhs_d1_1 (i : S8192x32.Idx) (q : dot_S8192x36_S36x32_S8192x32_1_0_0_1_n_n.contr.Idx) :
    (dot_S8192x36_S36x32_S8192x32_1_0_0_1_n_n.lhsIdx i q 1).val = (q ⟨0, by decide⟩).val :=
  dot_S8192x36_S36x32_S8192x32_1_0_0_1_n_n.lhsIdx_val_of_single rfl i q
theorem rhs_d1_0 (i : S8192x32.Idx) (q : dot_S8192x36_S36x32_S8192x32_1_0_0_1_n_n.contr.Idx) :
    (dot_S8192x36_S36x32_S8192x32_1_0_0_1_n_n.rhsIdx i q 0).val = (q ⟨0, by decide⟩).val :=
  dot_S8192x36_S36x32_S8192x32_1_0_0_1_n_n.rhsIdx_val_of_single rfl i q
theorem rhs_d1_1 (i : S8192x32.Idx) (q : dot_S8192x36_S36x32_S8192x32_1_0_0_1_n_n.contr.Idx) :
    (dot_S8192x36_S36x32_S8192x32_1_0_0_1_n_n.rhsIdx i q 1).val = (i 1).val := by
  unfold DotDims.rhsIdx
  rw [dif_neg (show ¬(1 : Fin S36x32.rank) ∈ dot_S8192x36_S36x32_S8192x32_1_0_0_1_n_n.rhsBatch by decide), dif_pos (show (1 : Fin S36x32.rank) ∈ dot_S8192x36_S36x32_S8192x32_1_0_0_1_n_n.rhsNonContracting by decide)]
  rfl

theorem lhs_d2_0 (i : S8192x152.Idx) (q : dot_S8192x32_S32x152_S8192x152_1_0_0_1_n_n.contr.Idx) :
    (dot_S8192x32_S32x152_S8192x152_1_0_0_1_n_n.lhsIdx i q 0).val = (i 0).val := by
  unfold DotDims.lhsIdx
  rw [dif_neg (show ¬(0 : Fin S8192x32.rank) ∈ dot_S8192x32_S32x152_S8192x152_1_0_0_1_n_n.lhsBatch by decide), dif_pos (show (0 : Fin S8192x32.rank) ∈ dot_S8192x32_S32x152_S8192x152_1_0_0_1_n_n.lhsNonContracting by decide)]
  rfl
theorem lhs_d2_1 (i : S8192x152.Idx) (q : dot_S8192x32_S32x152_S8192x152_1_0_0_1_n_n.contr.Idx) :
    (dot_S8192x32_S32x152_S8192x152_1_0_0_1_n_n.lhsIdx i q 1).val = (q ⟨0, by decide⟩).val :=
  dot_S8192x32_S32x152_S8192x152_1_0_0_1_n_n.lhsIdx_val_of_single rfl i q
theorem rhs_d2_0 (i : S8192x152.Idx) (q : dot_S8192x32_S32x152_S8192x152_1_0_0_1_n_n.contr.Idx) :
    (dot_S8192x32_S32x152_S8192x152_1_0_0_1_n_n.rhsIdx i q 0).val = (q ⟨0, by decide⟩).val :=
  dot_S8192x32_S32x152_S8192x152_1_0_0_1_n_n.rhsIdx_val_of_single rfl i q
theorem rhs_d2_1 (i : S8192x152.Idx) (q : dot_S8192x32_S32x152_S8192x152_1_0_0_1_n_n.contr.Idx) :
    (dot_S8192x32_S32x152_S8192x152_1_0_0_1_n_n.rhsIdx i q 1).val = (i 1).val := by
  unfold DotDims.rhsIdx
  rw [dif_neg (show ¬(1 : Fin S32x152.rank) ∈ dot_S8192x32_S32x152_S8192x152_1_0_0_1_n_n.rhsBatch by decide), dif_pos (show (1 : Fin S32x152.rank) ∈ dot_S8192x32_S32x152_S8192x152_1_0_0_1_n_n.rhsNonContracting by decide)]
  rfl

/-- The first product into a zero accumulator, at row `p`, column `c`: `∑ k, x p k * w k c`. -/
theorem matmul_d1_apply (x : FVec Ideal S8192x36 .f32) (w : FVec Ideal S36x32 .f32) (p : Fin 8192) (c : Fin 32) :
    matmul dot_S8192x36_S36x32_S8192x32_1_0_0_1_n_n none x w (constant (F := Ideal) S8192x32 .f32 0x00000000#32) (ix2 p c)
      = ∑ k : Fin 36, x (ix2 p k) * w (ix2 k c) := by
  show FloatOps.matmul dot_S8192x36_S36x32_S8192x32_1_0_0_1_n_n none x w (constant (F := Ideal) S8192x32 .f32 0x00000000#32) (ix2 p c) = _
  rw [Ideal.matmul_constant_zero_apply, ← Equiv.sum_comp (ValueIdx.contrEquiv1 dot_S8192x36_S36x32_S8192x32_1_0_0_1_n_n 36 rfl rfl).symm]
  refine Finset.sum_congr rfl fun k _ => ?_
  have hk := ValueIdx.contrEquiv1_symm_val dot_S8192x36_S36x32_S8192x32_1_0_0_1_n_n 36 rfl rfl k
  have el : dot_S8192x36_S36x32_S8192x32_1_0_0_1_n_n.lhsIdx (ix2 p c) ((ValueIdx.contrEquiv1 dot_S8192x36_S36x32_S8192x32_1_0_0_1_n_n 36 rfl rfl).symm k) = ix2 p k := funext fun a => Fin.ext (by
    match a with
    | ⟨0, _⟩ => exact lhs_d1_0 _ _
    | ⟨1, _⟩ => exact (lhs_d1_1 _ _).trans hk)
  have er : dot_S8192x36_S36x32_S8192x32_1_0_0_1_n_n.rhsIdx (ix2 p c) ((ValueIdx.contrEquiv1 dot_S8192x36_S36x32_S8192x32_1_0_0_1_n_n 36 rfl rfl).symm k) = ix2 k c := funext fun a => Fin.ext (by
    match a with
    | ⟨0, _⟩ => exact (rhs_d1_0 _ _).trans hk
    | ⟨1, _⟩ => exact rhs_d1_1 _ _)
  rw [el, er]

/-- The second product into a zero accumulator, at row `p`, column `c`: `∑ a, u p a * w a c`. -/
theorem matmul_d2_apply (x : FVec Ideal S8192x32 .f32) (w : FVec Ideal S32x152 .f32) (p : Fin 8192) (c : Fin 152) :
    matmul dot_S8192x32_S32x152_S8192x152_1_0_0_1_n_n none x w (constant (F := Ideal) S8192x152 .f32 0x00000000#32) (ix2 p c)
      = ∑ k : Fin 32, x (ix2 p k) * w (ix2 k c) := by
  show FloatOps.matmul dot_S8192x32_S32x152_S8192x152_1_0_0_1_n_n none x w (constant (F := Ideal) S8192x152 .f32 0x00000000#32) (ix2 p c) = _
  rw [Ideal.matmul_constant_zero_apply, ← Equiv.sum_comp (ValueIdx.contrEquiv1 dot_S8192x32_S32x152_S8192x152_1_0_0_1_n_n 32 rfl rfl).symm]
  refine Finset.sum_congr rfl fun k _ => ?_
  have hk := ValueIdx.contrEquiv1_symm_val dot_S8192x32_S32x152_S8192x152_1_0_0_1_n_n 32 rfl rfl k
  have el : dot_S8192x32_S32x152_S8192x152_1_0_0_1_n_n.lhsIdx (ix2 p c) ((ValueIdx.contrEquiv1 dot_S8192x32_S32x152_S8192x152_1_0_0_1_n_n 32 rfl rfl).symm k) = ix2 p k := funext fun a => Fin.ext (by
    match a with
    | ⟨0, _⟩ => exact lhs_d2_0 _ _
    | ⟨1, _⟩ => exact (lhs_d2_1 _ _).trans hk)
  have er : dot_S8192x32_S32x152_S8192x152_1_0_0_1_n_n.rhsIdx (ix2 p c) ((ValueIdx.contrEquiv1 dot_S8192x32_S32x152_S8192x152_1_0_0_1_n_n 32 rfl rfl).symm k) = ix2 k c := funext fun a => Fin.ext (by
    match a with
    | ⟨0, _⟩ => exact (rhs_d2_0 _ _).trans hk
    | ⟨1, _⟩ => exact rhs_d2_1 _ _)
  rw [el, er]

/-- Row `p` of the 8192-row block of projected features, as the 152 features of that row. -/
abbrev zxRow (P0 : Vec Ideal S8192x36 .f32) (P1 : Vec Ideal S36x32 .f32) (P2 : Vec Ideal S1x32 .f32)
    (P3 : Vec Ideal S32x152 .f32) (p : Fin 8192) : Fin 152 → EReal :=
  fun j => k0_pay2 (F := Ideal) P0 P1 P2 P3 (ix2 p j)

/-- The two projections of the block, read at row `p`, feature `j`: the row's own two projections. -/
theorem pay2_apply (P0 : Vec Ideal S8192x36 .f32) (P1 : Vec Ideal S36x32 .f32) (P2 : Vec Ideal S1x32 .f32)
    (P3 : Vec Ideal S32x152 .f32) (p : Fin 8192) (j : Fin 152) :
    k0_pay2 (F := Ideal) P0 P1 P2 P3 (ix2 p j)
      = proj2 (proj1 (fun k => P0 (ix2 p k)) (fun k a => P1 (ix2 k a)) (fun a => P2 (ix2 0 a))) (fun a j => P3 (ix2 a j)) j := by
  have e1 : shapeCast S36x32 P1 shapeCasts_S36x32_S36x32 = P1 := shapeCast_self _ _
  have e2 : shapeCast S1x32 P2 shapeCasts_S1x32_S1x32 = P2 := shapeCast_self _ _
  have e3 : shapeCast S32x152 P3 shapeCasts_S32x152_S32x152 = P3 := shapeCast_self _ _
  unfold k0_pay2
  refine (matmul_d2_apply _ _ p j).trans ?_
  refine Finset.sum_congr rfl fun a _ => ?_
  rw [e3]
  refine congrArg (· * P3 (ix2 a j)) ?_
  show matmul dot_S8192x36_S36x32_S8192x32_1_0_0_1_n_n none P0 (shapeCast S36x32 P1 shapeCasts_S36x32_S36x32) (constant (F := Ideal) S8192x32 .f32 0x00000000#32) (ix2 p a)
      + broadcastTo S8192x32 (shapeCast S1x32 P2 shapeCasts_S1x32_S1x32) broadcasts_S1x32_S8192x32 (ix2 p a) = _
  rw [e1, e2, matmul_d1_apply, broadcastTo_1b_ab_apply]
  rfl

/-- The gate slice at row `p`. -/
theorem pay3_apply (P0 : Vec Ideal S8192x36 .f32) (P1 : Vec Ideal S36x32 .f32) (P2 : Vec Ideal S1x32 .f32)
    (P3 : Vec Ideal S32x152 .f32) (p : Fin 8192) (j : Fin 64) :
    k0_pay3 (F := Ideal) P0 P1 P2 P3 (ix2 p j) = zxRow P0 P1 P2 P3 p (zPos j) := by
  unfold k0_pay3
  exact slice2_axis1_apply 0 _ slices_S8192x152_o0_0_S8192x64 p j (zPos j) (Nat.zero_add _).symm

/-- Entry by entry, `(x · w + b) · σ(x · w + b)` is `silu` of the affine form. -/
theorem silu_affine_apply {s : Shape} (x w b : FVec Ideal s .f32) (i : s.Idx) :
    mulf (addf (mulf x w) b) (logistic (addf (mulf x w) b)) i = silu (x i * w i + b i) := rfl

/-- The convolved features (last tap, bias, silu) at row `p`, feature `j` of the 80. -/
theorem pay4_apply (P0 : Vec Ideal S8192x36 .f32) (P1 : Vec Ideal S36x32 .f32) (P2 : Vec Ideal S1x32 .f32)
    (P3 : Vec Ideal S32x152 .f32) (P4 P5 : Vec Ideal S1x80 .f32) (p : Fin 8192) (j : Fin 80) :
    k0_pay4 (F := Ideal) P0 P1 P2 P3 P4 P5 (ix2 p j)
      = conv (zxRow P0 P1 P2 P3 p) (fun j => P4 (ix2 0 j)) (fun j => P5 (ix2 0 j)) j := by
  have e4 : shapeCast S1x80 P4 shapeCasts_S1x80_S1x80 = P4 := shapeCast_self _ _
  have e5 : shapeCast S1x80 P5 shapeCasts_S1x80_S1x80 = P5 := shapeCast_self _ _
  unfold k0_pay4
  refine (silu_affine_apply _ _ _ (ix2 p j)).trans ?_
  rw [e4, e5, slice2_axis1_apply 64 _ slices_S8192x152_o0_64_S8192x80 p j (convPos j) rfl,
    broadcastTo_1b_ab_apply, broadcastTo_1b_ab_apply]
  rfl

theorem pay5_apply (P0 : Vec Ideal S8192x36 .f32) (P1 : Vec Ideal S36x32 .f32) (P2 : Vec Ideal S1x32 .f32)
    (P3 : Vec Ideal S32x152 .f32) (P4 P5 : Vec Ideal S1x80 .f32) (p : Fin 8192) (j : Fin 64) :
    k0_pay5 (F := Ideal) P0 P1 P2 P3 P4 P5 (ix2 p j)
      = conv (zxRow P0 P1 P2 P3 p) (fun j => P4 (ix2 0 j)) (fun j => P5 (ix2 0 j)) (xhPos j) := by
  unfold k0_pay5
  exact (slice2_axis1_apply 0 _ slices_S8192x80_o0_0_S8192x64 p j (xhPos j) (Nat.zero_add _).symm).trans
    (pay4_apply P0 P1 P2 P3 P4 P5 p (xhPos j))

theorem pay6_apply (P0 : Vec Ideal S8192x36 .f32) (P1 : Vec Ideal S36x32 .f32) (P2 : Vec Ideal S1x32 .f32)
    (P3 : Vec Ideal S32x152 .f32) (P4 P5 : Vec Ideal S1x80 .f32) (p : Fin 8192) (h : Fin 8) :
    k0_pay6 (F := Ideal) P0 P1 P2 P3 P4 P5 (ix2 p h)
      = conv (zxRow P0 P1 P2 P3 p) (fun j => P4 (ix2 0 j)) (fun j => P5 (ix2 0 j)) (bPos h) := by
  unfold k0_pay6
  exact (slice2_axis1_apply 64 _ slices_S8192x80_o0_64_S8192x8 p h (bPos h) rfl).trans
    (pay4_apply P0 P1 P2 P3 P4 P5 p (bPos h))

theorem pay7_apply (P0 : Vec Ideal S8192x36 .f32) (P1 : Vec Ideal S36x32 .f32) (P2 : Vec Ideal S1x32 .f32)
    (P3 : Vec Ideal S32x152 .f32) (P4 P5 : Vec Ideal S1x80 .f32) (p : Fin 8192) (h : Fin 8) :
    k0_pay7 (F := Ideal) P0 P1 P2 P3 P4 P5 (ix2 p h)
      = conv (zxRow P0 P1 P2 P3 p) (fun j => P4 (ix2 0 j)) (fun j => P5 (ix2 0 j)) (cPos h) := by
  unfold k0_pay7
  exact (slice2_axis1_apply 72 _ slices_S8192x80_o0_72_S8192x8 p h (cPos h) rfl).trans
    (pay4_apply P0 P1 P2 P3 P4 P5 p (cPos h))

/-- The step feature plus its bias at row `p`, head `h`. -/
theorem pay8_apply (P0 : Vec Ideal S8192x36 .f32) (P1 : Vec Ideal S36x32 .f32) (P2 : Vec Ideal S1x32 .f32)
    (P3 : Vec Ideal S32x152 .f32) (P6 : Vec Ideal S1x8 .f32) (p : Fin 8192) (h : Fin 8) :
    k0_pay8 (F := Ideal) P0 P1 P2 P3 P6 (ix2 p h) = zxRow P0 P1 P2 P3 p (stepPos h) + P6 (ix2 0 h) := by
  have e6 : shapeCast S1x8 P6 shapeCasts_S1x8_S1x8 = P6 := shapeCast_self _ _
  unfold k0_pay8
  refine (addf_apply _ _ (ix2 p h)).trans ?_
  rw [e6, slice2_axis1_apply 144 _ slices_S8192x152_o0_144_S8192x8 p h (stepPos h) rfl, broadcastTo_1b_ab_apply]

/-- The pieces of the kernel's softplus at row `p`, head `h`, over `t` = the step feature plus its bias. -/
theorem pay9_apply (P0 : Vec Ideal S8192x36 .f32) (P1 : Vec Ideal S36x32 .f32) (P2 : Vec Ideal S1x32 .f32)
    (P3 : Vec Ideal S32x152 .f32) (P6 : Vec Ideal S1x8 .f32) (p : Fin 8192) (h : Fin 8) :
    k0_pay9 (F := Ideal) P0 P1 P2 P3 P6 (ix2 p h) = max (k0_pay8 (F := Ideal) P0 P1 P2 P3 P6 (ix2 p h)) w0 := by
  unfold k0_pay9
  rfl

theorem pay11_apply (P0 : Vec Ideal S8192x36 .f32) (P1 : Vec Ideal S36x32 .f32) (P2 : Vec Ideal S1x32 .f32)
    (P3 : Vec Ideal S32x152 .f32) (P6 : Vec Ideal S1x8 .f32) (p : Fin 8192) (h : Fin 8) :
    k0_pay11 (F := Ideal) P0 P1 P2 P3 P6 (ix2 p h)
      = Ideal.cmp .one (k0_pay8 (F := Ideal) P0 P1 P2 P3 P6 (ix2 p h) - w0) (k0_pay8 (F := Ideal) P0 P1 P2 P3 P6 (ix2 p h) - w0) := by
  unfold k0_pay11 k0_pay10
  rfl

theorem pay12_apply (P0 : Vec Ideal S8192x36 .f32) (P1 : Vec Ideal S36x32 .f32) (P2 : Vec Ideal S1x32 .f32)
    (P3 : Vec Ideal S32x152 .f32) (P6 : Vec Ideal S1x8 .f32) (p : Fin 8192) (h : Fin 8) :
    k0_pay12 (F := Ideal) P0 P1 P2 P3 P6 (ix2 p h) = k0_pay8 (F := Ideal) P0 P1 P2 P3 P6 (ix2 p h) + w0 := by
  unfold k0_pay12
  rfl

theorem pay13_apply (P0 : Vec Ideal S8192x36 .f32) (P1 : Vec Ideal S36x32 .f32) (P2 : Vec Ideal S1x32 .f32)
    (P3 : Vec Ideal S32x152 .f32) (P6 : Vec Ideal S1x8 .f32) (p : Fin 8192) (h : Fin 8) :
    k0_pay13 (F := Ideal) P0 P1 P2 P3 P6 (ix2 p h)
      = w0 - max (k0_pay8 (F := Ideal) P0 P1 P2 P3 P6 (ix2 p h) - w0) (-(k0_pay8 (F := Ideal) P0 P1 P2 P3 P6 (ix2 p h) - w0)) := by
  unfold k0_pay13 k0_pay10
  rfl

end Cert.KernelRow

end
-- ==== Proof.KernelTail.lean ====
import proofs.«158069_j36524401885833_1_alg».proof.Proof.RowSpec
import proofs.«158069_j36524401885833_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelRow

open Idealize.ShloMosaic Idealize.ShloMosaic.ValueIdx Cert.KernelIdeal Cert.KernelIdeal.Gen Cert.RowSpec

/-! ## Layout and reduction steps read at a row and a lane -/

section Steps
variable {α : Type}

/-- A column `[m]` viewed as `[m, 1]` reads, at `(p, u)`, the column at `p`. -/
theorem shapeCast_a_a1_apply {m : Nat} (x : (⟨1, ![m]⟩ : Shape).Idx → α)
    (hc : (⟨1, ![m]⟩ : Shape).ShapeCasts ⟨2, ![m, 1]⟩) (p : Fin m) (u : Fin 1) :
    shapeCast ⟨2, ![m, 1]⟩ x hc (ix2 p u) = x (ix1 p) :=
  shapeCast_apply x hc _ _ (by
    have hu : u.val = 0 := by omega
    rw [Shape.rowMajor_val_one, Shape.rowMajor_val_two]
    show p.val = p.val * 1 + u.val
    rw [hu, Nat.mul_one, Nat.add_zero])

/-- An `[m, 1]` column spread over `n` lanes reads, at `(p, c)`, the column at `(p, 0)`. -/
theorem broadcastTo_a1_ab_apply {m n : Nat} (y : (⟨2, ![m, 1]⟩ : Shape).Idx → α)
    (hb : (⟨2, ![m, 1]⟩ : Shape).Broadcasts ⟨2, ![m, n]⟩) (p : Fin m) (c : Fin n) :
    broadcastTo ⟨2, ![m, n]⟩ y hb (ix2 p c) = y (ix2 p (0 : Fin 1)) := by
  refine broadcastTo_apply y hb (ix2 p c) (ix2 p (0 : Fin 1)) fun a => ?_
  match a with
  | ⟨0, _⟩ =>
    show p.val = if m = 1 then 0 else p.val
    split
    · have := p.isLt; omega
    · rfl
  | ⟨1, _⟩ => rfl

/-- The two together: a column kept as `[m, 1]` and spread over `n` lanes reads the column at `p`. -/
theorem keepdims_apply {m n : Nat} (x : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (p : Fin m) (c : Fin n) :
    broadcastTo ⟨2, ![m, n]⟩ (shapeCast ⟨2, ![m, 1]⟩ x hc) hb (ix2 p c) = x (ix1 p) :=
  (broadcastTo_a1_ab_apply _ hb p c).trans (shapeCast_a_a1_apply x hc p 0)

end Steps

/-- The sum over the lanes of an `[m, n]` vector, at row `p`, is the sum over the row. -/
theorem rowSum_apply {m n : Nat} (v : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (p : Fin m) :
    multiReduction (F := Ideal) .add [1] ⟨1, ![m]⟩ v 0x00000000#32 h hφ hacc (ix1 p) = ∑ k : Fin n, v (ix2 p k) :=
  (Ideal.multiReduction_add_single v _ h hφ hacc (ix1 p)).trans
    (Finset.sum_congr rfl fun k _ => congrArg v (funext fun a => Fin.ext (match a with | ⟨0, _⟩ => rfl | ⟨1, _⟩ => rfl)))

/-- The maximum over the lanes of an `[m, n]` vector, at row `p`, is the fold of `max` from `-∞` over the row. -/
theorem rowMaxFold_apply {m n : Nat} (v : FVec Ideal ⟨2, ![m, n]⟩ .f32) (h : Shape.Reduces ⟨2, ![m, n]⟩ [1] ⟨1, ![m]⟩)
    (hφ : FKind.Formats .f32) (hacc : (0xFF800000#32 : BitVec 32) = FKind.maximumf.neutral .f32 hφ) (p : Fin m) :
    multiReduction (F := Ideal) .maximumf [1] ⟨1, ![m]⟩ v 0xFF800000#32 h hφ hacc (ix1 p)
      = (Finset.univ : Finset (Fin n)).fold max wNegInf (fun c => v (ix2 p c)) :=
  (Ideal.multiReduction_maximumf_single v _ h hφ hacc (ix1 p)).trans
    (congrArg ((Finset.univ : Finset (Fin n)).fold max wNegInf)
      (funext fun k => congrArg v (funext fun a => Fin.ext (match a with | ⟨0, _⟩ => rfl | ⟨1, _⟩ => rfl))))

/-! ## The two matrix products read at a row and a lane -/

theorem lhs_hs_0 (i : S8192x64.Idx) (q : dot_S8192x8_S8x64_S8192x64_1_0_0_1_n_n.contr.Idx) :
    (dot_S8192x8_S8x64_S8192x64_1_0_0_1_n_n.lhsIdx i q 0).val = (i 0).val := by
  unfold DotDims.lhsIdx
  rw [dif_neg (show ¬(0 : Fin S8192x8.rank) ∈ dot_S8192x8_S8x64_S8192x64_1_0_0_1_n_n.lhsBatch by decide), dif_pos (show (0 : Fin S8192x8.rank) ∈ dot_S8192x8_S8x64_S8192x64_1_0_0_1_n_n.lhsNonContracting by decide)]
  rfl
theorem lhs_hs_1 (i : S8192x64.Idx) (q : dot_S8192x8_S8x64_S8192x64_1_0_0_1_n_n.contr.Idx) :
    (dot_S8192x8_S8x64_S8192x64_1_0_0_1_n_n.lhsIdx i q 1).val = (q ⟨0, by decide⟩).val :=
  dot_S8192x8_S8x64_S8192x64_1_0_0_1_n_n.lhsIdx_val_of_single rfl i q
theorem rhs_hs_0 (i : S8192x64.Idx) (q : dot_S8192x8_S8x64_S8192x64_1_0_0_1_n_n.contr.Idx) :
    (dot_S8192x8_S8x64_S8192x64_1_0_0_1_n_n.rhsIdx i q 0).val = (q ⟨0, by decide⟩).val :=
  dot_S8192x8_S8x64_S8192x64_1_0_0_1_n_n.rhsIdx_val_of_single rfl i q
theorem rhs_hs_1 (i : S8192x64.Idx) (q : dot_S8192x8_S8x64_S8192x64_1_0_0_1_n_n.contr.Idx) :
    (dot_S8192x8_S8x64_S8192x64_1_0_0_1_n_n.rhsIdx i q 1).val = (i 1).val := by
  unfold DotDims.rhsIdx
  rw [dif_neg (show ¬(1 : Fin S8x64.rank) ∈ dot_S8192x8_S8x64_S8192x64_1_0_0_1_n_n.rhsBatch by decide), dif_pos (show (1 : Fin S8x64.rank) ∈ dot_S8192x8_S8x64_S8192x64_1_0_0_1_n_n.rhsNonContracting by decide)]
  rfl

/-- The `[8192, 8]` by `[8, 64]` product into a zero accumulator, at `(p, c)`: the sum over the 8 heads. -/
theorem matmul_hs_apply (A : FVec Ideal S8192x8 .f32) (B : FVec Ideal S8x64 .f32) (p : Fin 8192) (c : Fin 64) :
    matmul (F := Ideal) dot_S8192x8_S8x64_S8192x64_1_0_0_1_n_n none A B (constant (F := Ideal) S8192x64 .f32 0x00000000#32) (ix2 p c)
      = ∑ k : Fin 8, A (ix2 p k) * B (ix2 k c) := by
  simp only [matmul]
  rw [Ideal.matmul_constant_zero_apply, ← Equiv.sum_comp (contrEquiv1 dot_S8192x8_S8x64_S8192x64_1_0_0_1_n_n 8 rfl rfl).symm]
  refine Finset.sum_congr rfl fun k _ => ?_
  have hk := contrEquiv1_symm_val dot_S8192x8_S8x64_S8192x64_1_0_0_1_n_n 8 rfl rfl k
  have el : dot_S8192x8_S8x64_S8192x64_1_0_0_1_n_n.lhsIdx (ix2 p c) ((contrEquiv1 dot_S8192x8_S8x64_S8192x64_1_0_0_1_n_n 8 rfl rfl).symm k) = ix2 p k := funext fun a => Fin.ext (by
    match a with
    | ⟨0, _⟩ => exact lhs_hs_0 _ _
    | ⟨1, _⟩ => exact (lhs_hs_1 _ _).trans hk)
  have er : dot_S8192x8_S8x64_S8192x64_1_0_0_1_n_n.rhsIdx (ix2 p c) ((contrEquiv1 dot_S8192x8_S8x64_S8192x64_1_0_0_1_n_n 8 rfl rfl).symm k) = ix2 k c := funext fun a => Fin.ext (by
    match a with
    | ⟨0, _⟩ => exact (rhs_hs_0 _ _).trans hk
    | ⟨1, _⟩ => exact rhs_hs_1 _ _)
  rw [el, er]

theorem lhs_lg_0 (i : S8192x32.Idx) (q : dot_S8192x64_S64x32_S8192x32_1_0_0_1_n_n.contr.Idx) :
    (dot_S8192x64_S64x32_S8192x32_1_0_0_1_n_n.lhsIdx i q 0).val = (i 0).val := by
  unfold DotDims.lhsIdx
  rw [dif_neg (show ¬(0 : Fin S8192x64.rank) ∈ dot_S8192x64_S64x32_S8192x32_1_0_0_1_n_n.lhsBatch by decide), dif_pos (show (0 : Fin S8192x64.rank) ∈ dot_S8192x64_S64x32_S8192x32_1_0_0_1_n_n.lhsNonContracting by decide)]
  rfl
theorem lhs_lg_1 (i : S8192x32.Idx) (q : dot_S8192x64_S64x32_S8192x32_1_0_0_1_n_n.contr.Idx) :
    (dot_S8192x64_S64x32_S8192x32_1_0_0_1_n_n.lhsIdx i q 1).val = (q ⟨0, by decide⟩).val :=
  dot_S8192x64_S64x32_S8192x32_1_0_0_1_n_n.lhsIdx_val_of_single rfl i q
theorem rhs_lg_0 (i : S8192x32.Idx) (q : dot_S8192x64_S64x32_S8192x32_1_0_0_1_n_n.contr.Idx) :
    (dot_S8192x64_S64x32_S8192x32_1_0_0_1_n_n.rhsIdx i q 0).val = (q ⟨0, by decide⟩).val :=
  dot_S8192x64_S64x32_S8192x32_1_0_0_1_n_n.rhsIdx_val_of_single rfl i q
theorem rhs_lg_1 (i : S8192x32.Idx) (q : dot_S8192x64_S64x32_S8192x32_1_0_0_1_n_n.contr.Idx) :
    (dot_S8192x64_S64x32_S8192x32_1_0_0_1_n_n.rhsIdx i q 1).val = (i 1).val := by
  unfold DotDims.rhsIdx
  rw [dif_neg (show ¬(1 : Fin S64x32.rank) ∈ dot_S8192x64_S64x32_S8192x32_1_0_0_1_n_n.rhsBatch by decide), dif_pos (show (1 : Fin S64x32.rank) ∈ dot_S8192x64_S64x32_S8192x32_1_0_0_1_n_n.rhsNonContracting by decide)]
  rfl

/-- The `[8192, 64]` by `[64, 32]` product into a zero accumulator, at `(p, c)`: the sum over the 64 features. -/
theorem matmul_lg_apply (A : FVec Ideal S8192x64 .f32) (B : FVec Ideal S64x32 .f32) (p : Fin 8192) (c : Fin 32) :
    matmul (F := Ideal) dot_S8192x64_S64x32_S8192x32_1_0_0_1_n_n none A B (constant (F := Ideal) S8192x32 .f32 0x00000000#32) (ix2 p c)
      = ∑ k : Fin 64, A (ix2 p k) * B (ix2 k c) := by
  simp only [matmul]
  rw [Ideal.matmul_constant_zero_apply, ← Equiv.sum_comp (contrEquiv1 dot_S8192x64_S64x32_S8192x32_1_0_0_1_n_n 64 rfl rfl).symm]
  refine Finset.sum_congr rfl fun k _ => ?_
  have hk := contrEquiv1_symm_val dot_S8192x64_S64x32_S8192x32_1_0_0_1_n_n 64 rfl rfl k
  have el : dot_S8192x64_S64x32_S8192x32_1_0_0_1_n_n.lhsIdx (ix2 p c) ((contrEquiv1 dot_S8192x64_S64x32_S8192x32_1_0_0_1_n_n 64 rfl rfl).symm k) = ix2 p k := funext fun a => Fin.ext (by
    match a with
    | ⟨0, _⟩ => exact lhs_lg_0 _ _
    | ⟨1, _⟩ => exact (lhs_lg_1 _ _).trans hk)
  have er : dot_S8192x64_S64x32_S8192x32_1_0_0_1_n_n.rhsIdx (ix2 p c) ((contrEquiv1 dot_S8192x64_S64x32_S8192x32_1_0_0_1_n_n 64 rfl rfl).symm k) = ix2 k c := funext fun a => Fin.ext (by
    match a with
    | ⟨0, _⟩ => exact (rhs_lg_0 _ _).trans hk
    | ⟨1, _⟩ => exact rhs_lg_1 _ _)
  rw [el, er]

/-! ## The body cut into stages

Each stage is a function of the vectors it reads; the whole body is the stages composed (`pay14_eq`, by unfolding). -/

section Stages
variable {F : FTy → Type} [FloatOps F]

/-- The selected step, `select c a (b + log1p (exp d))`, times `⟨B, C⟩`: the lane sum of `B · C`, kept as a column
    and spread over the 8 heads. -/
def tailA (v25 v26 v32 : FVec F S8192x8 .f32) (v35 : IVec S8192x8 1) (v37 v40 : FVec F S8192x8 .f32) : FVec F S8192x8 .f32 :=
  have v41 : FVec F S8192x8 .f32 := exp v40
  have v42 : FVec F S8192x8 .f32 := log1p v41
  have v43 : FVec F S8192x8 .f32 := addf v32 v42
  have v44 : FVec F S8192x8 .f32 := select v35 v37 v43
  have v45 : FVec F S8192x8 .f32 := mulf v25 v26
  have v46 : FVec F S8192 .f32 := multiReduction .add [1] S8192 v45 0x00000000#32 reduces_S8192x8_S8192 (.inl rfl) rfl
  have v47 : FVec F S8192x1 .f32 := shapeCast S8192x1 v46 shapeCasts_S8192_S8192x1
  have v48 : FVec F S8192x8 .f32 := broadcastTo S8192x8 v47 broadcasts_S8192x1_S8192x8
  have v49 : FVec F S8192x8 .f32 := mulf v44 v48
  v49

/-- The head scales times the 8 × 64 matrix, plus the skip row spread over the rows, times `xh`. -/
def tailB (v24 : FVec F S8192x64 .f32) (v49 : FVec F S8192x8 .f32) (v50 : Vec F S8x64 .f32) (v53 : Vec F S1x64 .f32) : FVec F S8192x64 .f32 :=
  have v51 : FVec F S8x64 .f32 := shapeCast S8x64 v50 shapeCasts_S8x64_S8x64
  have cst_19 : FVec F S8192x64 .f32 := constant S8192x64 .f32 0x00000000#32
  have v52 : FVec F S8192x64 .f32 := matmul dot_S8192x8_S8x64_S8192x64_1_0_0_1_n_n none v49 v51 cst_19
  have v54 : FVec F S1x64 .f32 := shapeCast S1x64 v53 shapeCasts_S1x64_S1x64
  have v55 : FVec F S8192x64 .f32 := broadcastTo S8192x64 v54 broadcasts_S1x64_S8192x64
  have v56 : FVec F S8192x64 .f32 := addf v52 v55
  have v57 : FVec F S8192x64 .f32 := mulf v24 v56
  v57

/-- The gate: times `z · σ(z)`. -/
def tailC (v57 v11 : FVec F S8192x64 .f32) : FVec F S8192x64 .f32 :=
  have v58 : FVec F S8192x64 .f32 := logistic v11
  have v59 : FVec F S8192x64 .f32 := mulf v11 v58
  have v60 : FVec F S8192x64 .f32 := mulf v57 v59
  v60

/-- The normalisation: times the reciprocal root of the mean of squares over the 64 lanes plus epsilon, times the
    scale row. -/
def tailD (v60 : FVec F S8192x64 .f32) (v71 : Vec F S1x64 .f32) : FVec F S8192x64 .f32 :=
  have v61 : FVec F S8192x64 .f32 := mulf v60 v60
  have v62 : FVec F S8192 .f32 := multiReduction .add [1] S8192 v61 0x00000000#32 reduces_S8192x64_S8192 (.inl rfl) rfl
  have v63 : FVec F S8192x1 .f32 := shapeCast S8192x1 v62 shapeCasts_S8192_S8192x1
  have cst_23 : F .f32 := Scalar.ofBits .f32 0x42800000#32
  have v64 : FVec F S8192x1 .f32 := broadcast S8192x1 cst_23
  have v65 : FVec F S8192x1 .f32 := divf v63 v64
  have cst_24 : F .f32 := Scalar.ofBits .f32 0x3727C5AC#32
  have v66 : FVec F S8192x1 .f32 := broadcast S8192x1 cst_24
  have v67 : FVec F S8192x1 .f32 := addf v65 v66
  have v68 : FVec F S8192x1 .f32 := rsqrt v67
  have v69 : FVec F S8192x64 .f32 := broadcastTo S8192x64 v68 broadcasts_S8192x1_S8192x64
  have v70 : FVec F S8192x64 .f32 := mulf v60 v69
  have v72 : FVec F S1x64 .f32 := shapeCast S1x64 v71 shapeCasts_S1x64_S1x64
  have v73 : FVec F S8192x64 .f32 := broadcastTo S8192x64 v72 broadcasts_S1x64_S8192x64
  have v74 : FVec F S8192x64 .f32 := mulf v70 v73
  v74

/-- The projection to the 32 logits: times the 64 × 32 matrix. -/
def tailE (v74 : FVec F S8192x64 .f32) (v75 : Vec F S64x32 .f32) : FVec F S8192x32 .f32 :=
  have v76 : FVec F S64x32 .f32 := shapeCast S64x32 v75 shapeCasts_S64x32_S64x32
  have cst_29 : FVec F S8192x32 .f32 := constant S8192x32 .f32 0x00000000#32
  have v77 : FVec F S8192x32 .f32 := matmul dot_S8192x64_S64x32_S8192x32_1_0_0_1_n_n none v74 v76 cst_29
  v77

/-- The row maximum (from `-∞`, and once more against `-∞`) subtracted, and the exponential. -/
def tailF (v77 : FVec F S8192x32 .f32) : FVec F S8192x32 .f32 :=
  have v78 : FVec F S8192 .f32 := multiReduction .maximumf [1] S8192 v77 0xFF800000#32 reduces_S8192x32_S8192 (.inl rfl) rfl
  have cst_31 : F .f32 := Scalar.ofBits .f32 0xFF800000#32
  have v79 : FVec F S8192 .f32 := broadcast S8192 cst_31
  have v80 : FVec F S8192 .f32 := maximumf v79 v78
  have v81 : FVec F S8192x1 .f32 := shapeCast S8192x1 v80 shapeCasts_S8192_S8192x1
  have v82 : FVec F S8192x32 .f32 := broadcastTo S8192x32 v81 broadcasts_S8192x1_S8192x32
  have v83 : FVec F S8192x32 .f32 := subf v77 v82
  have v84 : FVec F S8192x32 .f32 := exp v83
  v84

/-- The body is its stages, one after the other. -/
theorem pay14_eq (v11 v24 : FVec F S8192x64 .f32) (v25 v26 v32 : FVec F S8192x8 .f32) (v35 : IVec S8192x8 1)
    (v37 v40 : FVec F S8192x8 .f32) (v50 : Vec F S8x64 .f32) (v53 v71 : Vec F S1x64 .f32) (v75 : Vec F S64x32 .f32) :
    k0_pay14 v11 v24 v25 v26 v32 v35 v37 v40 v50 v53 v71 v75
      = tailF (tailE (tailD (tailC (tailB v24 (tailA v25 v26 v32 v35 v37 v40) v50 v53) v11) v71) v75) := rfl

end Stages

/-! ## Each stage read at row `p` -/

theorem tailA_apply (v25 v26 v32 : FVec Ideal S8192x8 .f32) (v35 : IVec S8192x8 1) (v37 v40 : FVec Ideal S8192x8 .f32)
    (p : Fin 8192) (h : Fin 8) :
    tailA (F := Ideal) v25 v26 v32 v35 v37 v40 (ix2 p h)
      = Scalar.select (v35 (ix2 p h)) (v37 (ix2 p h)) (v32 (ix2 p h) + Ideal.log1p (Ideal.exp (v40 (ix2 p h))))
          * inner (fun h' => v25 (ix2 p h')) (fun h' => v26 (ix2 p h')) := by
  unfold tailA
  show Scalar.select (v35 (ix2 p h)) (v37 (ix2 p h)) (v32 (ix2 p h) + Ideal.log1p (Ideal.exp (v40 (ix2 p h))))
      * broadcastTo S8192x8 _ _ (ix2 p h) = _
  refine congrArg (fun t : EReal => Scalar.select (v35 (ix2 p h)) (v37 (ix2 p h)) (v32 (ix2 p h) + Ideal.log1p (Ideal.exp (v40 (ix2 p h)))) * t) ?_
  refine (keepdims_apply _ _ _ p h).trans ?_
  exact rowSum_apply (mulf v25 v26) _ _ _ p

theorem tailB_apply (v24 : FVec Ideal S8192x64 .f32) (v49 : FVec Ideal S8192x8 .f32) (P7 : Vec Ideal S8x64 .f32)
    (P8 : Vec Ideal S1x64 .f32) (p : Fin 8192) (j : Fin 64) :
    tailB (F := Ideal) v24 v49 P7 P8 (ix2 p j)
      = mixK (fun j => v24 (ix2 p j)) (fun h => v49 (ix2 p h)) (fun h j => P7 (ix2 h j)) (fun j => P8 (ix2 0 j)) j := by
  unfold tailB
  show v24 (ix2 p j) * (matmul (F := Ideal) dot_S8192x8_S8x64_S8192x64_1_0_0_1_n_n none v49 _ _ (ix2 p j) + broadcastTo S8192x64 _ _ (ix2 p j)) = _
  rw [matmul_hs_apply, shapeCast_self, shapeCast_self, broadcastTo_1b_ab_apply]
  rfl

theorem tailC_apply (v57 v11 : FVec Ideal S8192x64 .f32) (p : Fin 8192) (j : Fin 64) :
    tailC (F := Ideal) v57 v11 (ix2 p j) = gated (fun j => v57 (ix2 p j)) (fun j => v11 (ix2 p j)) j := rfl

theorem tailD_apply (v60 : FVec Ideal S8192x64 .f32) (P9 : Vec Ideal S1x64 .f32) (p : Fin 8192) (j : Fin 64) :
    tailD (F := Ideal) v60 P9 (ix2 p j) = v60 (ix2 p j) * rnorm (fun j => v60 (ix2 p j)) * P9 (ix2 0 j) := by
  unfold tailD
  show v60 (ix2 p j) * broadcastTo S8192x64 _ _ (ix2 p j) * broadcastTo S8192x64 _ _ (ix2 p j) = _
  rw [broadcastTo_a1_ab_apply, shapeCast_self, broadcastTo_1b_ab_apply]
  show v60 (ix2 p j) * Ideal.rsqrt (Ideal.div (shapeCast S8192x1 _ _ (ix2 p (0 : Fin 1))) w64 + wEps) * P9 (ix2 0 j) = _
  refine congrArg (fun t => v60 (ix2 p j) * Ideal.rsqrt (Ideal.div t w64 + wEps) * P9 (ix2 0 j)) ?_
  refine (shapeCast_a_a1_apply _ _ p 0).trans ?_
  exact rowSum_apply (mulf v60 v60) _ _ _ p

theorem tailE_apply (v74 : FVec Ideal S8192x64 .f32) (P10 : Vec Ideal S64x32 .f32) (p : Fin 8192) (q : Fin 32) :
    tailE (F := Ideal) v74 P10 (ix2 p q) = ∑ j : Fin 64, v74 (ix2 p j) * P10 (ix2 j q) := by
  unfold tailE
  show matmul (F := Ideal) dot_S8192x64_S64x32_S8192x32_1_0_0_1_n_n none v74 _ _ (ix2 p q) = _
  rw [matmul_lg_apply, shapeCast_self]

theorem tailF_apply (v77 : FVec Ideal S8192x32 .f32) (p : Fin 8192) (q : Fin 32) :
    tailF (F := Ideal) v77 (ix2 p q) = Ideal.exp (v77 (ix2 p q) - rowMax (fun q => v77 (ix2 p q))) := by
  unfold tailF
  show Ideal.exp (v77 (ix2 p q) - broadcastTo S8192x32 _ _ (ix2 p q)) = _
  refine congrArg (fun t => Ideal.exp (v77 (ix2 p q) - t)) ?_
  refine (keepdims_apply _ _ _ p q).trans ?_
  show max wNegInf (multiReduction (F := Ideal) .maximumf [1] S8192 v77 _ _ _ _ (ix1 p)) = _
  exact congrArg (max wNegInf) (rowMaxFold_apply v77 _ _ _ p)

/-- The last step: each exponential over the sum of its row. -/
theorem pay1_apply (v84 : FVec Ideal S8192x32 .f32) (p : Fin 8192) (q : Fin 32) :
    k0_pay1 (F := Ideal) v84 (ix2 p q) = Ideal.div (v84 (ix2 p q)) (∑ q' : Fin 32, v84 (ix2 p q')) := by
  unfold k0_pay1
  show Ideal.div (v84 (ix2 p q)) (broadcastTo S8192x32 _ _ (ix2 p q)) = _
  refine congrArg (Ideal.div (v84 (ix2 p q))) ?_
  refine (keepdims_apply _ _ _ p q).trans ?_
  exact rowSum_apply v84 _ _ _ p

/-- The last two stages are the softmax of the row. -/
theorem pay1_tailF_apply (v77 : FVec Ideal S8192x32 .f32) (p : Fin 8192) (q : Fin 32) :
    k0_pay1 (F := Ideal) (tailF (F := Ideal) v77) (ix2 p q) = softmax (fun q => v77 (ix2 p q)) q := by
  rw [pay1_apply, tailF_apply]
  unfold softmax
  exact congrArg (Ideal.div _) (Finset.sum_congr rfl fun q' _ => tailF_apply v77 p q')

/-- The rest of the body — select the softplus branch, `⟨B, C⟩`, spread the head scales by the 8 × 64 matrix, add the
    spread skip weights, multiply into `xh`, gate, normalise, scale, project, softmax — at row `p`, logit `q`, over
    whatever vectors the first part hands over, each read at row `p`. -/
theorem pay1_pay14_apply (v11 v24 : FVec Ideal S8192x64 .f32) (v25 v26 v32 : FVec Ideal S8192x8 .f32) (v35 : IVec S8192x8 1)
    (v37 v40 : FVec Ideal S8192x8 .f32) (P7 : Vec Ideal S8x64 .f32) (P8 P9 : Vec Ideal S1x64 .f32) (P10 : Vec Ideal S64x32 .f32)
    (p : Fin 8192) (q : Fin 32) :
    k0_pay1 (F := Ideal) (k0_pay14 (F := Ideal) v11 v24 v25 v26 v32 v35 v37 v40 P7 P8 P9 P10) (ix2 p q)
      = tail
          (mixK (fun j => v24 (ix2 p j))
            (fun h => Scalar.select (v35 (ix2 p h)) (v37 (ix2 p h)) (v32 (ix2 p h) + Ideal.log1p (Ideal.exp (v40 (ix2 p h))))
              * inner (fun h' => v25 (ix2 p h')) (fun h' => v26 (ix2 p h')))
            (fun h j => P7 (ix2 h j)) (fun j => P8 (ix2 0 j)))
          (fun j => v11 (ix2 p j)) (fun j => P9 (ix2 0 j)) (fun j q => P10 (ix2 j q)) q := by
  rw [pay14_eq]
  refine (pay1_tailF_apply _ p q).trans ?_
  unfold tail
  refine congrArg (fun o => softmax o q) (funext fun q' => ?_)
  refine (tailE_apply _ P10 p q').trans ?_
  unfold logits
  have hA : (fun h => tailA (F := Ideal) v25 v26 v32 v35 v37 v40 (ix2 p h))
      = fun h => Scalar.select (v35 (ix2 p h)) (v37 (ix2 p h)) (v32 (ix2 p h) + Ideal.log1p (Ideal.exp (v40 (ix2 p h))))
          * inner (fun h' => v25 (ix2 p h')) (fun h' => v26 (ix2 p h')) :=
    funext fun h => tailA_apply v25 v26 v32 v35 v37 v40 p h
  have hB : (fun j => tailB (F := Ideal) v24 (tailA (F := Ideal) v25 v26 v32 v35 v37 v40) P7 P8 (ix2 p j))
      = mixK (fun j => v24 (ix2 p j))
          (fun h => Scalar.select (v35 (ix2 p h)) (v37 (ix2 p h)) (v32 (ix2 p h) + Ideal.log1p (Ideal.exp (v40 (ix2 p h))))
            * inner (fun h' => v25 (ix2 p h')) (fun h' => v26 (ix2 p h')))
          (fun h j => P7 (ix2 h j)) (fun j => P8 (ix2 0 j)) :=
    (funext fun j => tailB_apply v24 _ P7 P8 p j).trans (congrArg (fun s => mixK (fun j => v24 (ix2 p j)) s (fun h j => P7 (ix2 h j)) (fun j => P8 (ix2 0 j))) hA)
  have hC : (fun j => tailC (F := Ideal) (tailB (F := Ideal) v24 (tailA (F := Ideal) v25 v26 v32 v35 v37 v40) P7 P8) v11 (ix2 p j))
      = gated (mixK (fun j => v24 (ix2 p j))
          (fun h => Scalar.select (v35 (ix2 p h)) (v37 (ix2 p h)) (v32 (ix2 p h) + Ideal.log1p (Ideal.exp (v40 (ix2 p h))))
            * inner (fun h' => v25 (ix2 p h')) (fun h' => v26 (ix2 p h')))
          (fun h j => P7 (ix2 h j)) (fun j => P8 (ix2 0 j))) (fun j => v11 (ix2 p j)) :=
    (funext fun j => tailC_apply _ v11 p j).trans (congrArg (fun y => gated y (fun j => v11 (ix2 p j))) hB)
  refine Finset.sum_congr rfl fun j _ => congrArg (· * P10 (ix2 j q')) ?_
  refine (tailD_apply _ P9 p j).trans ?_
  have hCj := congrFun hC j
  rw [hC]
  exact congrArg (fun t => t * rnorm _ * P9 (ix2 0 j)) hCj

end Cert.KernelRow

end
-- ==== Proof.KernelRow.lean ====
/-
  The whole kernel body at row `p`, logit `q` of its block: the kernel's row function of row `p` of the input block and
  of the weight blocks.  The two halves of the body are read separately (the projections, the convolved features and the
  pieces of the softplus; then everything from the softplus's select on); here the pieces are put together: the
  select over the pieces is `softplus` of the step feature plus its bias, and the projected row is the row's own two
  projections.
-/
import proofs.«158069_j36524401885833_1_alg».proof.Proof.KernelProj
import proofs.«158069_j36524401885833_1_alg».proof.Proof.KernelTail

noncomputable section

namespace Cert.KernelRow

open Idealize.ShloMosaic Idealize.ShloMosaic.ValueIdx Cert.KernelIdeal Cert.KernelIdeal.Gen Cert.RowSpec

/-- The projected row is the two projections of the input row. -/
theorem zxRow_eq (P0 : Vec Ideal S8192x36 .f32) (P1 : Vec Ideal S36x32 .f32) (P2 : Vec Ideal S1x32 .f32)
    (P3 : Vec Ideal S32x152 .f32) (p : Fin 8192) :
    zxRow P0 P1 P2 P3 p
      = proj2 (proj1 (fun k => P0 (ix2 p k)) (fun k a => P1 (ix2 k a)) (fun a => P2 (ix2 0 a))) (fun a j => P3 (ix2 a j)) :=
  funext fun j => pay2_apply P0 P1 P2 P3 p j

/-- The store's payload at `(p, q)` is the kernel's row function of row `p`. -/
theorem payload_row (P0 : Vec Ideal S8192x36 .f32) (P1 : Vec Ideal S36x32 .f32) (P2 : Vec Ideal S1x32 .f32)
    (P3 : Vec Ideal S32x152 .f32) (P4 P5 : Vec Ideal S1x80 .f32) (P6 : Vec Ideal S1x8 .f32) (P7 : Vec Ideal S8x64 .f32)
    (P8 P9 : Vec Ideal S1x64 .f32) (P10 : Vec Ideal S64x32 .f32) (p : Fin 8192) (q : Fin 32) :
    k0_pay1 (F := Ideal) (k0_pay14 (F := Ideal) (k0_pay3 P0 P1 P2 P3) (k0_pay5 P0 P1 P2 P3 P4 P5) (k0_pay6 P0 P1 P2 P3 P4 P5)
        (k0_pay7 P0 P1 P2 P3 P4 P5) (k0_pay9 P0 P1 P2 P3 P6) (k0_pay11 P0 P1 P2 P3 P6) (k0_pay12 P0 P1 P2 P3 P6)
        (k0_pay13 P0 P1 P2 P3 P6) P7 P8 P9 P10) (ix2 p q)
      = rowK (fun k => P0 (ix2 p k)) (fun k a => P1 (ix2 k a)) (fun a => P2 (ix2 0 a)) (fun a j => P3 (ix2 a j))
          (fun j => P4 (ix2 0 j)) (fun j => P5 (ix2 0 j)) (fun h => P6 (ix2 0 h)) (fun h j => P7 (ix2 h j))
          (fun j => P8 (ix2 0 j)) (fun j => P9 (ix2 0 j)) (fun j q => P10 (ix2 j q)) q := by
  rw [pay1_pay14_apply]
  unfold rowK
  have hstep : ∀ h : Fin 8,
      Scalar.select (k0_pay11 (F := Ideal) P0 P1 P2 P3 P6 (ix2 p h)) (k0_pay12 (F := Ideal) P0 P1 P2 P3 P6 (ix2 p h))
          (k0_pay9 (F := Ideal) P0 P1 P2 P3 P6 (ix2 p h) + Ideal.log1p (Ideal.exp (k0_pay13 (F := Ideal) P0 P1 P2 P3 P6 (ix2 p h))))
        = step (zxRow P0 P1 P2 P3 p) (fun h => P6 (ix2 0 h)) h := by
    intro h
    rw [pay9_apply, pay11_apply, pay12_apply, pay13_apply, pay8_apply]
    exact softplus_kernel_form _
  simp only [hstep, pay3_apply, pay5_apply, pay6_apply, pay7_apply, zxRow_eq, pay2_apply]

end Cert.KernelRow

end
-- ==== Proof.KernelHost.lean ====
import proofs.«158069_j36524401885833_1_alg».proof.Proof.RowSpec
import proofs.«158069_j36524401885833_1_alg».proof.Proof.Gen.KernelIdeal.Frame
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Predicate

noncomputable section

namespace Cert.KernelHost

open Idealize.ShloMosaic Idealize.ShloMosaic.ValueIdx Idealize.SL.Sem Cert.KernelIdeal Cert.KernelIdeal.Gen Cert.RowSpec

variable (m : (ℓ : Loc nD τ sig) → Buf (Elt Ideal) ℓ) (c : Dev nD)

/-! What the region finds in each array it stages, entry by entry, in terms of the arguments: three transposes, the
    last column of the convolution weights, the 0/1 matrix that repeats each head eight times (an identity matrix
    spread by a row of ones), the skip weights repeated likewise, and rank-one reshapes. -/

theorem V_v0 (k : Fin 36) (a : Fin 32) :
    (V m c main_v0 : S36x32.Idx → EReal) (ix2 k a) = (m ((c.tc : Thread nD τ).loc main_arg1) : S32x36.Idx → EReal) (ix2 a k) := by
  have e : (V m c main_v0 : S36x32.Idx → EReal)
      = transpose S36x32 [1, 0] (m ((c.tc : Thread nD τ).loc main_arg1) : S32x36.Idx → EReal) transposes_S32x36_S36x32_1_0 := by
    dsimp only [Gen.V]
    simp only [Gen.hostOps0, Gen.hostOps0_1, Gen.hostOps0_2, List.flatten_cons, List.flatten_nil, List.append_nil, List.cons_append, List.nil_append]
    after_results <;> rfl
  rw [e]
  refine transpose_apply _ _ _ _ _ (fun b => ?_)
  match b with
  | ⟨0, _⟩ => rfl
  | ⟨1, _⟩ => rfl

theorem V_v15 (a : Fin 32) :
    (V m c main_v15 : S1x32.Idx → EReal) (ix2 0 a) = (m ((c.tc : Thread nD τ).loc main_arg2) : S32.Idx → EReal) (ix1 a) := by
  have e : (V m c main_v15 : S1x32.Idx → EReal)
      = shapeCast S1x32 (m ((c.tc : Thread nD τ).loc main_arg2) : S32.Idx → EReal) shapeCasts_S32_S1x32 := by
    dsimp only [Gen.V]
    simp only [Gen.hostOps0, Gen.hostOps0_1, Gen.hostOps0_2, List.flatten_cons, List.flatten_nil, List.append_nil, List.cons_append, List.nil_append]
    after_results <;> rfl
  rw [e]
  refine shapeCast_apply _ _ _ _ ?_
  show (S32.rowMajor (ix1 a)).val = (S1x32.rowMajor (ix2 0 a)).val
  rw [Shape.rowMajor_val_one, Shape.rowMajor_val_two]
  show a.val = (0 : Fin 1).val * 32 + a.val
  simp

theorem V_v1 (a : Fin 32) (j : Fin 152) :
    (V m c main_v1 : S32x152.Idx → EReal) (ix2 a j) = (m ((c.tc : Thread nD τ).loc main_arg3) : S152x32.Idx → EReal) (ix2 j a) := by
  have e : (V m c main_v1 : S32x152.Idx → EReal)
      = transpose S32x152 [1, 0] (m ((c.tc : Thread nD τ).loc main_arg3) : S152x32.Idx → EReal) transposes_S152x32_S32x152_1_0 := by
    dsimp only [Gen.V]
    simp only [Gen.hostOps0, Gen.hostOps0_1, Gen.hostOps0_2, List.flatten_cons, List.flatten_nil, List.append_nil, List.cons_append, List.nil_append]
    after_results <;> rfl
  rw [e]
  refine transpose_apply _ _ _ _ _ (fun b => ?_)
  match b with
  | ⟨0, _⟩ => rfl
  | ⟨1, _⟩ => rfl

theorem V_v16 (j : Fin 80) :
    (V m c main_v16 : S1x80.Idx → EReal) (ix2 0 j) = (m ((c.tc : Thread nD τ).loc main_arg4) : S80x2.Idx → EReal) (ix2 j 1) := by
  have e : (V m c main_v16 : S1x80.Idx → EReal)
      = shapeCast S1x80 (shapeCast S80
          (extractStridedSlice S80x1 ![0, 1] (m ((c.tc : Thread nD τ).loc main_arg4) : S80x2.Idx → EReal) slices_S80x2_S80x1_0_1)
          shapeCasts_S80x1_S80) shapeCasts_S80_S1x80 := by
    dsimp only [Gen.V]
    simp only [Gen.hostOps0, Gen.hostOps0_1, Gen.hostOps0_2, List.flatten_cons, List.flatten_nil, List.append_nil, List.cons_append, List.nil_append]
    after_results <;> rfl
  rw [e]
  refine (shapeCast_apply _ _ (ix2 0 j) (ix1 j) ?_).trans ?_
  · show (S80.rowMajor (ix1 j)).val = (S1x80.rowMajor (ix2 0 j)).val
    rw [Shape.rowMajor_val_one, Shape.rowMajor_val_two]
    show j.val = (0 : Fin 1).val * 80 + j.val
    simp
  refine (shapeCast_apply _ _ (ix1 j) (ix2 j 0) ?_).trans ?_
  · show (S80x1.rowMajor (ix2 j 0)).val = (S80.rowMajor (ix1 j)).val
    rw [Shape.rowMajor_val_one, Shape.rowMajor_val_two]
    show j.val * 1 + (0 : Fin 1).val = j.val
    simp
  refine extractStridedSlice_apply _ _ _ (ix2 j 0) (ix2 j 1) (fun a => ?_)
  match a with
  | ⟨0, _⟩ => show j.val = 0 + j.val; omega
  | ⟨1, _⟩ => rfl

theorem V_v17 (j : Fin 80) :
    (V m c main_v17 : S1x80.Idx → EReal) (ix2 0 j) = (m ((c.tc : Thread nD τ).loc main_arg5) : S80.Idx → EReal) (ix1 j) := by
  have e : (V m c main_v17 : S1x80.Idx → EReal)
      = shapeCast S1x80 (m ((c.tc : Thread nD τ).loc main_arg5) : S80.Idx → EReal) shapeCasts_S80_S1x80 := by
    dsimp only [Gen.V]
    simp only [Gen.hostOps0, Gen.hostOps0_1, Gen.hostOps0_2, List.flatten_cons, List.flatten_nil, List.append_nil, List.cons_append, List.nil_append]
    after_results <;> rfl
  rw [e]
  refine shapeCast_apply _ _ _ _ ?_
  show (S80.rowMajor (ix1 j)).val = (S1x80.rowMajor (ix2 0 j)).val
  rw [Shape.rowMajor_val_one, Shape.rowMajor_val_two]
  show j.val = (0 : Fin 1).val * 80 + j.val
  simp

theorem V_v18 (h : Fin 8) :
    (V m c main_v18 : S1x8.Idx → EReal) (ix2 0 h) = (m ((c.tc : Thread nD τ).loc main_arg6) : S8.Idx → EReal) (ix1 h) := by
  have e : (V m c main_v18 : S1x8.Idx → EReal)
      = shapeCast S1x8 (m ((c.tc : Thread nD τ).loc main_arg6) : S8.Idx → EReal) shapeCasts_S8_S1x8 := by
    dsimp only [Gen.V]
    simp only [Gen.hostOps0, Gen.hostOps0_1, Gen.hostOps0_2, List.flatten_cons, List.flatten_nil, List.append_nil, List.cons_append, List.nil_append]
    after_results <;> rfl
  rw [e]
  refine shapeCast_apply _ _ _ _ ?_
  show (S8.rowMajor (ix1 h)).val = (S1x8.rowMajor (ix2 0 h)).val
  rw [Shape.rowMajor_val_one, Shape.rowMajor_val_two]
  show h.val = (0 : Fin 1).val * 8 + h.val
  simp

/-- The 8 × 8 identity as extended reals: the row position plus zero, compared with the column position, widened. -/
theorem eye_apply (h a : Fin 8) :
    (uitofp (F := Ideal) .f32 (cmpi .eq (addi (iotaInDim S8x8 32 0) (broadcastInDim S8x8 ![] bcast_S_S8x8 (constantI S_ 32 0#32)))
        (iotaInDim S8x8 32 1)) : S8x8.Idx → EReal) (ix2 h a) = (if h = a then (1 : EReal) else 0) := by
  show (((IntOp.cmpi .eq (IntOp.addi (BitVec.ofNat 32 h.val) 0#32) (BitVec.ofNat 32 a.val)).toNat : ℝ) : EReal) = _
  by_cases hha : h = a
  · subst hha
    rw [if_pos rfl]
    have : IntOp.cmpi .eq (IntOp.addi (BitVec.ofNat 32 h.val) 0#32) (BitVec.ofNat 32 h.val) = 1#1 := by
      rw [StableHlo.Predicate.cmpi_eq_iff]; simp [IntOp.addi]
    rw [this]; simp
  · rw [if_neg hha]
    have : IntOp.cmpi .eq (IntOp.addi (BitVec.ofNat 32 h.val) 0#32) (BitVec.ofNat 32 a.val) = 0#1 := by
      have hne : ¬ (IntOp.cmpi .eq (IntOp.addi (BitVec.ofNat 32 h.val) 0#32) (BitVec.ofNat 32 a.val) = 1#1) := by
        rw [StableHlo.Predicate.cmpi_eq_iff]
        intro hc
        apply hha
        have := congrArg BitVec.toNat hc
        simp [IntOp.addi, BitVec.toNat_ofNat] at this
        exact Fin.ext (by omega)
      generalize IntOp.cmpi .eq (IntOp.addi (BitVec.ofNat 32 h.val) 0#32) (BitVec.ofNat 32 a.val) = w at hne ⊢
      revert hne; revert w; decide
    rw [this]; simp

theorem V_v12 (h : Fin 8) (j : Fin 64) :
    (V m c main_v12 : S8x64.Idx → EReal) (ix2 h j) = (if h = headOf j then (1 : EReal) else 0) := by
  have e : (V m c main_v12 : S8x64.Idx → EReal)
      = shapeCast S8x64
          (mulf (F := Ideal)
            (broadcastInDim S8x1x8x8 ![0, 1, 2, 3] bcast_S8x1x8x1_S8x1x8x8_0_1_2_3
              (broadcastInDim S8x1x8x1 ![0, 2] bcast_S8x8_S8x1x8x1_0_2
                (uitofp (F := Ideal) .f32 (cmpi .eq (addi (iotaInDim S8x8 32 0) (broadcastInDim S8x8 ![] bcast_S_S8x8 (constantI S_ 32 0#32)))
                  (iotaInDim S8x8 32 1)))))
            (broadcastInDim S8x1x8x8 ![0, 1, 2, 3] bcast_S1x1x1x8_S8x1x8x8_0_1_2_3
              (broadcastInDim S1x1x1x8 ![1, 3] bcast_S1x8_S1x1x1x8_1_3
                (broadcastInDim S1x8 ![] bcast_S_S1x8 (constant (F := Ideal) S_ .f32 0x3F800000#32)))))
          shapeCasts_S8x1x8x8_S8x64 := by
    dsimp only [Gen.V]
    simp only [Gen.hostOps0, Gen.hostOps0_1, Gen.hostOps0_2, List.flatten_cons, List.flatten_nil, List.append_nil, List.cons_append, List.nil_append]
    after_results <;> rfl
  rw [e]
  refine (shapeCast_apply _ _ (ix2 h j) (ix4 h (0 : Fin 1) (headOf j) (⟨j.val % 8, Nat.mod_lt _ (by norm_num)⟩ : Fin 8)) ?_).trans ?_
  · show (S8x1x8x8.rowMajor (ix4 h (0 : Fin 1) (headOf j) (⟨j.val % 8, Nat.mod_lt _ (by norm_num)⟩ : Fin 8))).val = (S8x64.rowMajor (ix2 h j)).val
    rw [Shape.rowMajor_val_four, Shape.rowMajor_val_two]
    show ((h.val * 1 + (0 : Fin 1).val) * 8 + j.val / 8) * 8 + j.val % 8 = h.val * 64 + j.val
    simp only [Fin.val_zero]
    omega
  rw [mulf_apply]
  have e1 : (broadcastInDim S8x1x8x8 ![0, 1, 2, 3] bcast_S8x1x8x1_S8x1x8x8_0_1_2_3
              (broadcastInDim S8x1x8x1 ![0, 2] bcast_S8x8_S8x1x8x1_0_2
                (uitofp (F := Ideal) .f32 (cmpi .eq (addi (iotaInDim S8x8 32 0) (broadcastInDim S8x8 ![] bcast_S_S8x8 (constantI S_ 32 0#32)))
                  (iotaInDim S8x8 32 1))) : S8x1x8x1.Idx → EReal) : S8x1x8x8.Idx → EReal)
              (ix4 h (0 : Fin 1) (headOf j) (⟨j.val % 8, Nat.mod_lt _ (by norm_num)⟩ : Fin 8))
            = (if h = headOf j then (1 : EReal) else 0) := by
    refine (broadcastInDim_apply _ _ _ _ (ix4 h (0 : Fin 1) (headOf j) (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ _ (ix2 h (headOf j)) (fun a => ?_)).trans (eye_apply h (headOf j))
    match a with
    | ⟨0, _⟩ => rfl
    | ⟨1, _⟩ => rfl
  have e2 : (broadcastInDim S8x1x8x8 ![0, 1, 2, 3] bcast_S1x1x1x8_S8x1x8x8_0_1_2_3
              (broadcastInDim S1x1x1x8 ![1, 3] bcast_S1x8_S1x1x1x8_1_3
                (broadcastInDim S1x8 ![] bcast_S_S1x8 (constant (F := Ideal) S_ .f32 0x3F800000#32)) : S1x1x1x8.Idx → EReal) : S8x1x8x8.Idx → EReal)
              (ix4 h (0 : Fin 1) (headOf j) (⟨j.val % 8, Nat.mod_lt _ (by norm_num)⟩ : Fin 8))
            = (1 : EReal) := by
    show Ideal.ofBits .f32 0x3F800000#32 = 1
    exact Ideal.ofBits_one_f32
  rw [e1, e2, mul_one]

theorem V_v19 (j : Fin 64) :
    (V m c main_v19 : S1x64.Idx → EReal) (ix2 0 j) = (m ((c.tc : Thread nD τ).loc main_arg8) : S8.Idx → EReal) (ix1 (headOf j)) := by
  have e : (V m c main_v19 : S1x64.Idx → EReal)
      = shapeCast S1x64 (shapeCast S64
          (broadcastInDim S8x8 ![0] bcast_S8_S8x8_0 (m ((c.tc : Thread nD τ).loc main_arg8) : S8.Idx → EReal))
          shapeCasts_S8x8_S64) shapeCasts_S64_S1x64 := by
    dsimp only [Gen.V]
    simp only [Gen.hostOps0, Gen.hostOps0_1, Gen.hostOps0_2, List.flatten_cons, List.flatten_nil, List.append_nil, List.cons_append, List.nil_append]
    after_results <;> rfl
  rw [e]
  refine (shapeCast_apply _ _ (ix2 0 j) (ix1 j) ?_).trans ?_
  · show (S64.rowMajor (ix1 j)).val = (S1x64.rowMajor (ix2 0 j)).val
    rw [Shape.rowMajor_val_one, Shape.rowMajor_val_two]
    show j.val = (0 : Fin 1).val * 64 + j.val
    simp
  refine (shapeCast_apply _ _ (ix1 j) (ix2 (headOf j) (⟨j.val % 8, Nat.mod_lt _ (by norm_num)⟩ : Fin 8)) ?_).trans ?_
  · show (S8x8.rowMajor (ix2 (headOf j) (⟨j.val % 8, Nat.mod_lt _ (by norm_num)⟩ : Fin 8))).val = (S64.rowMajor (ix1 j)).val
    rw [Shape.rowMajor_val_one, Shape.rowMajor_val_two]
    show j.val / 8 * 8 + j.val % 8 = j.val
    omega
  refine broadcastInDim_apply _ _ _ _ (ix1 (headOf j)) (fun a => ?_)
  match a with
  | ⟨0, _⟩ => rfl

theorem V_v20 (j : Fin 64) :
    (V m c main_v20 : S1x64.Idx → EReal) (ix2 0 j) = (m ((c.tc : Thread nD τ).loc main_arg9) : S64.Idx → EReal) (ix1 j) := by
  have e : (V m c main_v20 : S1x64.Idx → EReal)
      = shapeCast S1x64 (m ((c.tc : Thread nD τ).loc main_arg9) : S64.Idx → EReal) shapeCasts_S64_S1x64 := by
    dsimp only [Gen.V]
    simp only [Gen.hostOps0, Gen.hostOps0_1, Gen.hostOps0_2, List.flatten_cons, List.flatten_nil, List.append_nil, List.cons_append, List.nil_append]
    after_results <;> rfl
  rw [e]
  refine shapeCast_apply _ _ _ _ ?_
  show (S64.rowMajor (ix1 j)).val = (S1x64.rowMajor (ix2 0 j)).val
  rw [Shape.rowMajor_val_one, Shape.rowMajor_val_two]
  show j.val = (0 : Fin 1).val * 64 + j.val
  simp

theorem V_v2 (j : Fin 64) (q : Fin 32) :
    (V m c main_v2 : S64x32.Idx → EReal) (ix2 j q) = (m ((c.tc : Thread nD τ).loc main_arg10) : S32x64.Idx → EReal) (ix2 q j) := by
  have e : (V m c main_v2 : S64x32.Idx → EReal)
      = transpose S64x32 [1, 0] (m ((c.tc : Thread nD τ).loc main_arg10) : S32x64.Idx → EReal) transposes_S32x64_S64x32_1_0 := by
    dsimp only [Gen.V]
    simp only [Gen.hostOps0, Gen.hostOps0_1, Gen.hostOps0_2, List.flatten_cons, List.flatten_nil, List.append_nil, List.cons_append, List.nil_append]
    after_results <;> rfl
  rw [e]
  refine transpose_apply _ _ _ _ _ (fun b => ?_)
  match b with
  | ⟨0, _⟩ => rfl
  | ⟨1, _⟩ => rfl

end Cert.KernelHost

end
-- ==== Proof.KernelValue.lean ====
/-
  The kernel's result array.  The grid has 64 points; point `t` stages rows `8192·t … 8192·t + 8191` of the input and
  the whole of every weight array, runs the body, and writes rows `8192·t …` of the result back.  Read through the
  block, the body's store at `(p, q)` is the kernel's row function of input row `8192·t + p` and of the weight arrays
  as the region finds them (transposes, a column, the 0/1 head matrix, the repeated skip weights of the arguments);
  the 64 blocks tile the result, so the array after the run is that function of the arguments at every index.
-/
import proofs.«158069_j36524401885833_1_alg».proof.Proof.Gen.KernelIdeal.Value
import proofs.«158069_j36524401885833_1_alg».proof.Proof.KernelRow
import proofs.«158069_j36524401885833_1_alg».proof.Proof.KernelHost

noncomputable section

namespace Cert.KernelValue

open Idealize.ShloMosaic Idealize.ShloMosaic.ValueIdx Idealize.ShloMosaic.TcCoe Idealize.SL.Sem
open Cert.KernelIdeal Cert.KernelIdeal.Gen Cert.KernelIdeal.Value Cert.RowSpec Cert.KernelRow Cert.KernelHost
open Idealize.ShloMosaic.Pipeline (Dat)

variable (m : (ℓ : Loc nD τ sig) → Buf (Elt Ideal) ℓ) (ρ : Dev nD → PrngReg)

/-- The kernel's result at `(n, q)`: its row function of row `n` of the first argument and of the weights. -/
def result (c : Dev nD) : S524288x32.Idx → EReal := fun i =>
  rowK (fun k => (m ((c.tc : Thread nD τ).loc main_arg0) : S524288x36.Idx → EReal) (ix2 (i 0) k))
    (fun k a => (m ((c.tc : Thread nD τ).loc main_arg1) : S32x36.Idx → EReal) (ix2 a k))
    (fun a => (m ((c.tc : Thread nD τ).loc main_arg2) : S32.Idx → EReal) (ix1 a))
    (fun a j => (m ((c.tc : Thread nD τ).loc main_arg3) : S152x32.Idx → EReal) (ix2 j a))
    (fun j => (m ((c.tc : Thread nD τ).loc main_arg4) : S80x2.Idx → EReal) (ix2 j 1))
    (fun j => (m ((c.tc : Thread nD τ).loc main_arg5) : S80.Idx → EReal) (ix1 j))
    (fun h => (m ((c.tc : Thread nD τ).loc main_arg6) : S8.Idx → EReal) (ix1 h))
    (fun h j => if h = headOf j then (1 : EReal) else 0)
    (fun j => (m ((c.tc : Thread nD τ).loc main_arg8) : S8.Idx → EReal) (ix1 (headOf j)))
    (fun j => (m ((c.tc : Thread nD τ).loc main_arg9) : S64.Idx → EReal) (ix1 j))
    (fun j q => (m ((c.tc : Thread nD τ).loc main_arg10) : S32x64.Idx → EReal) (ix2 q j)) (i 1)

theorem hz : (![0, 0] : Fin 2 → Nat) = fun _ => 0 := funext fun a => by fin_cases a <;> rfl

/-- The printed index maps over the grid: the input and the result move one block of rows per point, every weight
    window stays at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Row `p` of the input block at point `t` is row `8192·t + p` of the first argument. -/
theorem blk0 (c : Dev nD) (t : Fin cfg0.N) (p : Fin 8192) (k : Fin 36) (r : Fin 524288) (hr : r.val = t.val * 8192 + p.val) :
    (iblk m c 0 t : S8192x36.Idx → EReal) (ix2 p k) = (m ((c.tc : Thread nD τ).loc main_arg0) : S524288x36.Idx → EReal) (ix2 r k) := by
  show V m c main_arg0 (((cfg0.win 0).blk t).view.emb (ix2 p k)) = _
  rw [V_main_arg0]
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_0.index t (0 : Fin 2) * 8192 + 1 * p.val = r.val; rw [e0_0]; omega
  | ⟨1, _⟩ => show win0_0.index t (1 : Fin 2) * 36 + 1 * k.val = k.val; rw [e0_1]; omega

/-! Each weight window's block is the whole of its array. -/

theorem blk1 (c : Dev nD) (t : Fin cfg0.N) (y : S36x32.Idx) :
    (iblk m c 1 t : S36x32.Idx → EReal) y = (V m c main_v0 : S36x32.Idx → EReal) y := by
  show V m c main_v0 (((cfg0.win 1).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_1.index t (0 : Fin 2) * 36 + 1 * (y 0).val = (y 0).val; rw [e1_0]; omega
  | ⟨1, _⟩ => show win0_1.index t (1 : Fin 2) * 32 + 1 * (y 1).val = (y 1).val; rw [e1_1]; omega

theorem blk2 (c : Dev nD) (t : Fin cfg0.N) (y : S1x32.Idx) :
    (iblk m c 2 t : S1x32.Idx → EReal) y = (V m c main_v15 : S1x32.Idx → EReal) y := by
  show V m c main_v15 (((cfg0.win 2).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_2.index t (0 : Fin 2) * 1 + 1 * (y 0).val = (y 0).val; rw [e2_0]; omega
  | ⟨1, _⟩ => show win0_2.index t (1 : Fin 2) * 32 + 1 * (y 1).val = (y 1).val; rw [e2_1]; omega

theorem blk3 (c : Dev nD) (t : Fin cfg0.N) (y : S32x152.Idx) :
    (iblk m c 3 t : S32x152.Idx → EReal) y = (V m c main_v1 : S32x152.Idx → EReal) y := by
  show V m c main_v1 (((cfg0.win 3).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_3.index t (0 : Fin 2) * 32 + 1 * (y 0).val = (y 0).val; rw [e3_0]; omega
  | ⟨1, _⟩ => show win0_3.index t (1 : Fin 2) * 152 + 1 * (y 1).val = (y 1).val; rw [e3_1]; omega

theorem blk4 (c : Dev nD) (t : Fin cfg0.N) (y : S1x80.Idx) :
    (iblk m c 4 t : S1x80.Idx → EReal) y = (V m c main_v16 : S1x80.Idx → EReal) y := by
  show V m c main_v16 (((cfg0.win 4).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_4.index t (0 : Fin 2) * 1 + 1 * (y 0).val = (y 0).val; rw [e4_0]; omega
  | ⟨1, _⟩ => show win0_4.index t (1 : Fin 2) * 80 + 1 * (y 1).val = (y 1).val; rw [e4_1]; omega

theorem blk5 (c : Dev nD) (t : Fin cfg0.N) (y : S1x80.Idx) :
    (iblk m c 5 t : S1x80.Idx → EReal) y = (V m c main_v17 : S1x80.Idx → EReal) y := by
  show V m c main_v17 (((cfg0.win 5).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_5.index t (0 : Fin 2) * 1 + 1 * (y 0).val = (y 0).val; rw [e5_0]; omega
  | ⟨1, _⟩ => show win0_5.index t (1 : Fin 2) * 80 + 1 * (y 1).val = (y 1).val; rw [e5_1]; omega

theorem blk6 (c : Dev nD) (t : Fin cfg0.N) (y : S1x8.Idx) :
    (iblk m c 6 t : S1x8.Idx → EReal) y = (V m c main_v18 : S1x8.Idx → EReal) y := by
  show V m c main_v18 (((cfg0.win 6).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_6.index t (0 : Fin 2) * 1 + 1 * (y 0).val = (y 0).val; rw [e6_0]; omega
  | ⟨1, _⟩ => show win0_6.index t (1 : Fin 2) * 8 + 1 * (y 1).val = (y 1).val; rw [e6_1]; omega

theorem blk7 (c : Dev nD) (t : Fin cfg0.N) (y : S8x64.Idx) :
    (iblk m c 7 t : S8x64.Idx → EReal) y = (V m c main_v12 : S8x64.Idx → EReal) y := by
  show V m c main_v12 (((cfg0.win 7).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_7.index t (0 : Fin 2) * 8 + 1 * (y 0).val = (y 0).val; rw [e7_0]; omega
  | ⟨1, _⟩ => show win0_7.index t (1 : Fin 2) * 64 + 1 * (y 1).val = (y 1).val; rw [e7_1]; omega

theorem blk8 (c : Dev nD) (t : Fin cfg0.N) (y : S1x64.Idx) :
    (iblk m c 8 t : S1x64.Idx → EReal) y = (V m c main_v19 : S1x64.Idx → EReal) y := by
  show V m c main_v19 (((cfg0.win 8).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_8.index t (0 : Fin 2) * 1 + 1 * (y 0).val = (y 0).val; rw [e8_0]; omega
  | ⟨1, _⟩ => show win0_8.index t (1 : Fin 2) * 64 + 1 * (y 1).val = (y 1).val; rw [e8_1]; omega

theorem blk9 (c : Dev nD) (t : Fin cfg0.N) (y : S1x64.Idx) :
    (iblk m c 9 t : S1x64.Idx → EReal) y = (V m c main_v20 : S1x64.Idx → EReal) y := by
  show V m c main_v20 (((cfg0.win 9).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_9.index t (0 : Fin 2) * 1 + 1 * (y 0).val = (y 0).val; rw [e9_0]; omega
  | ⟨1, _⟩ => show win0_9.index t (1 : Fin 2) * 64 + 1 * (y 1).val = (y 1).val; rw [e9_1]; omega

theorem blk10 (c : Dev nD) (t : Fin cfg0.N) (y : S64x32.Idx) :
    (iblk m c 10 t : S64x32.Idx → EReal) y = (V m c main_v2 : S64x32.Idx → EReal) y := by
  show V m c main_v2 (((cfg0.win 10).blk t).view.emb y) = _
  congr 1
  funext a; apply Fin.ext
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  match a with
  | ⟨0, _⟩ => show win0_10.index t (0 : Fin 2) * 64 + 1 * (y 0).val = (y 0).val; rw [e10_0]; omega
  | ⟨1, _⟩ => show win0_10.index t (1 : Fin 2) * 32 + 1 * (y 1).val = (y 1).val; rw [e10_1]; omega

/-- The input blocks at a point, by their literal types. -/
abbrev b0 (c : Dev nD) (t : Fin cfg0.N) : Vec Ideal S8192x36 .f32 := iblk m c 0 t
abbrev b1 (c : Dev nD) (t : Fin cfg0.N) : Vec Ideal S36x32 .f32 := iblk m c 1 t
abbrev b2 (c : Dev nD) (t : Fin cfg0.N) : Vec Ideal S1x32 .f32 := iblk m c 2 t
abbrev b3 (c : Dev nD) (t : Fin cfg0.N) : Vec Ideal S32x152 .f32 := iblk m c 3 t
abbrev b4 (c : Dev nD) (t : Fin cfg0.N) : Vec Ideal S1x80 .f32 := iblk m c 4 t
abbrev b5 (c : Dev nD) (t : Fin cfg0.N) : Vec Ideal S1x80 .f32 := iblk m c 5 t
abbrev b6 (c : Dev nD) (t : Fin cfg0.N) : Vec Ideal S1x8 .f32 := iblk m c 6 t
abbrev b7 (c : Dev nD) (t : Fin cfg0.N) : Vec Ideal S8x64 .f32 := iblk m c 7 t
abbrev b8 (c : Dev nD) (t : Fin cfg0.N) : Vec Ideal S1x64 .f32 := iblk m c 8 t
abbrev b9 (c : Dev nD) (t : Fin cfg0.N) : Vec Ideal S1x64 .f32 := iblk m c 9 t
abbrev b10 (c : Dev nD) (t : Fin cfg0.N) : Vec Ideal S64x32 .f32 := iblk m c 10 t

/-- What point `t` writes back is block `t` of `result`. -/
theorem flushed_eq (c : Dev nD) (t : Fin cfg0.N) :
    (dats m 0 c).flushed 11 t = ((cfg0.win 11).blk t).view.read (Elt Ideal) (result m c) := by
  rw [flushed11]
  unfold out0_11
  rw [View.canon_unit_zero hz]
  simp only [View.ld_unit_zero (S := S8192x36) hz, View.ld_unit_zero (S := S36x32) hz, View.ld_unit_zero (S := S1x32) hz,
    View.ld_unit_zero (S := S32x152) hz, View.ld_unit_zero (S := S1x80) hz, View.ld_unit_zero (S := S1x8) hz,
    View.ld_unit_zero (S := S8x64) hz, View.ld_unit_zero (S := S1x64) hz, View.ld_unit_zero (S := S64x32) hz]
  funext y
  obtain ⟨p, q, rfl⟩ : ∃ (p : Fin 8192) (q : Fin 32), y = ix2 p q := ⟨y 0, y 1, eq_ix2 y⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have hN : cfg0.N = 64 := N_0
  have ht : t.val < 64 := by have := t.isLt; omega
  have hrow : ((((cfg0.win 11).blk t).view.emb (ix2 p q)) 0).val = t.val * 8192 + p.val := by
    show win0_11.index t (0 : Fin 2) * 8192 + 1 * p.val = _; rw [e11_0]; omega
  have hcol : (((cfg0.win 11).blk t).view.emb (ix2 p q)) 1 = q := by
    apply Fin.ext; show win0_11.index t (1 : Fin 2) * 32 + 1 * q.val = _; rw [e11_1]; omega
  show k0_pay1 (F := Ideal) (k0_pay14 (F := Ideal) (k0_pay3 (b0 m c t) (b1 m c t) (b2 m c t) (b3 m c t))
      (k0_pay5 (b0 m c t) (b1 m c t) (b2 m c t) (b3 m c t) (b4 m c t) (b5 m c t))
      (k0_pay6 (b0 m c t) (b1 m c t) (b2 m c t) (b3 m c t) (b4 m c t) (b5 m c t))
      (k0_pay7 (b0 m c t) (b1 m c t) (b2 m c t) (b3 m c t) (b4 m c t) (b5 m c t))
      (k0_pay9 (b0 m c t) (b1 m c t) (b2 m c t) (b3 m c t) (b6 m c t))
      (k0_pay11 (b0 m c t) (b1 m c t) (b2 m c t) (b3 m c t) (b6 m c t))
      (k0_pay12 (b0 m c t) (b1 m c t) (b2 m c t) (b3 m c t) (b6 m c t))
      (k0_pay13 (b0 m c t) (b1 m c t) (b2 m c t) (b3 m c t) (b6 m c t))
      (b7 m c t) (b8 m c t) (b9 m c t) (b10 m c t)) (ix2 p q)
    = result m c (((cfg0.win 11).blk t).view.emb (ix2 p q))
  refine (payload_row (b0 m c t) (b1 m c t) (b2 m c t) (b3 m c t) (b4 m c t) (b5 m c t) (b6 m c t) (b7 m c t) (b8 m c t)
    (b9 m c t) (b10 m c t) p q).trans ?_
  unfold result
  rw [hcol]
  have h0 : (fun k => b0 m c t (ix2 p k)) = fun k => (m ((c.tc : Thread nD τ).loc main_arg0) : S524288x36.Idx → EReal) (ix2 ((((cfg0.win 11).blk t).view.emb (ix2 p q)) 0) k) :=
    funext fun k => blk0 m c t p k _ hrow
  have h1 : (fun k a => b1 m c t (ix2 k a)) = fun k a => (m ((c.tc : Thread nD τ).loc main_arg1) : S32x36.Idx → EReal) (ix2 a k) :=
    funext fun k => funext fun a => (blk1 m c t _).trans (V_v0 m c k a)
  have h2 : (fun a => b2 m c t (ix2 0 a)) = fun a => (m ((c.tc : Thread nD τ).loc main_arg2) : S32.Idx → EReal) (ix1 a) :=
    funext fun a => (blk2 m c t _).trans (V_v15 m c a)
  have h3 : (fun a j => b3 m c t (ix2 a j)) = fun a j => (m ((c.tc : Thread nD τ).loc main_arg3) : S152x32.Idx → EReal) (ix2 j a) :=
    funext fun a => funext fun j => (blk3 m c t _).trans (V_v1 m c a j)
  have h4 : (fun j => b4 m c t (ix2 0 j)) = fun j => (m ((c.tc : Thread nD τ).loc main_arg4) : S80x2.Idx → EReal) (ix2 j 1) :=
    funext fun j => (blk4 m c t _).trans (V_v16 m c j)
  have h5 : (fun j => b5 m c t (ix2 0 j)) = fun j => (m ((c.tc : Thread nD τ).loc main_arg5) : S80.Idx → EReal) (ix1 j) :=
    funext fun j => (blk5 m c t _).trans (V_v17 m c j)
  have h6 : (fun h => b6 m c t (ix2 0 h)) = fun h => (m ((c.tc : Thread nD τ).loc main_arg6) : S8.Idx → EReal) (ix1 h) :=
    funext fun h => (blk6 m c t _).trans (V_v18 m c h)
  have h7 : (fun h j => b7 m c t (ix2 h j)) = fun h j => if h = headOf j then (1 : EReal) else 0 :=
    funext fun h => funext fun j => (blk7 m c t _).trans (V_v12 m c h j)
  have h8 : (fun j => b8 m c t (ix2 0 j)) = fun j => (m ((c.tc : Thread nD τ).loc main_arg8) : S8.Idx → EReal) (ix1 (headOf j)) :=
    funext fun j => (blk8 m c t _).trans (V_v19 m c j)
  have h9 : (fun j => b9 m c t (ix2 0 j)) = fun j => (m ((c.tc : Thread nD τ).loc main_arg9) : S64.Idx → EReal) (ix1 j) :=
    funext fun j => (blk9 m c t _).trans (V_v20 m c j)
  have h10 : (fun j q => b10 m c t (ix2 j q)) = fun j q => (m ((c.tc : Thread nD τ).loc main_arg10) : S32x64.Idx → EReal) (ix2 q j) :=
    funext fun j => funext fun q => (blk10 m c t _).trans (V_v2 m c j q)
  rw [h0, h1, h2, h3, h4, h5, h6, h7, h8, h9, h10]

/-- Every index of the result lies in the block of the point that holds its row. -/
theorem cover (i : S524288x32.Idx) :
    ∃ t : Fin cfg0.N, (cfg0.win 11).flush t = true ∧ i ∈ ((cfg0.win 11).blk t).view.set := by
  have hN : cfg0.N = 64 := N_0
  have hi0 : (i 0).val < 524288 := (i 0).isLt
  have hi1 : (i 1).val < 32 := (i 1).isLt
  let t : Fin cfg0.N := ⟨(i 0).val / 8192, by omega⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have htv : t.val = (i 0).val / 8192 := rfl
  refine ⟨t, flush0_11 t, ?_⟩
  show i ∈ ((View.whole main_v21).slice (win0_11.rect t)).set
  rw [View.set_slice_whole, Rect.mem_set_unit]
  intro a
  match a with
  | ⟨0, _⟩ => show win0_11.index t (0 : Fin 2) * 8192 ≤ (i 0).val ∧ (i 0).val < win0_11.index t (0 : Fin 2) * 8192 + 8192; rw [e11_0, htv]; omega
  | ⟨1, _⟩ => show win0_11.index t (1 : Fin 2) * 32 ≤ (i 1).val ∧ (i 1).val < win0_11.index t (1 : Fin 2) * 32 + 32; rw [e11_1]; omega

/-- The result array after the run. -/
theorem final (c : Dev nD) : (dats m 0 c).arrAt 11 cfg0.N = result m c :=
  (dats m 0 c).arrAt_eq_of_cover 11 (result m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelValue

end
-- ==== Proof.RefProj.lean ====
import proofs.«158069_j36524401885833_1_alg».proof.Proof.RowSpec
import proofs.«158069_j36524401885833_1_alg».proof.Proof.RefRead
import Idealize.ShloMosaic.Lib.ValueIdx
import Idealize.ShloMosaic.Lib.Pipeline.Value
import Idealize.ShloMosaic.PureOps.Ideal.Laws

noncomputable section

namespace Cert.RefRow

open Idealize.ShloMosaic Idealize.ShloMosaic.ValueIdx Cert.ReferenceIdeal Cert.ReferenceIdeal.ReadP Cert.RowSpec

/-- The 152 projected features of row `n` of the reference, from the arguments: the weights enter transposed. -/
abbrev zxRef (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal)) (n : Fin 524288) : Fin 152 → EReal :=
  proj2 (proj1 (fun k => A0 (ix2 n k)) (fun k a => A1 (ix2 a k)) (fun a => A2 (ix1 a))) (fun a j => A3 (ix2 j a))

/-- The first projection of the reference at row `n`, feature `a`: the product with the transposed weights, plus the bias. -/
theorem ref_u (A0 : (⟨S524288x36, .f32⟩ : BufTy).Contents (Elt Ideal)) (A1 : (⟨S32x36, .f32⟩ : BufTy).Contents (Elt Ideal))
    (A2 : (⟨S32, .f32⟩ : BufTy).Contents (Elt Ideal)) (n : Fin 524288) (a : Fin 32) :
    val_main_v4 (F := Ideal) A0 A1 A2 (ix2 n a)
      = proj1 (fun k => A0 (ix2 n k)) (fun k a => A1 (ix2 a k)) (fun a => A2 (ix1 a)) a := by
  have e1 : ∀ k : Fin 36, lidx_main_v1 (ix2 n a) k = ix2 n k := fun k =>
    funext fun d => Fin.ext (by match d with | ⟨0, _⟩ => rfl | ⟨1, _⟩ => rfl)
  have e2 : ∀ k : Fin 36, idx_main_v0 (ridx_main_v1 (ix2 n a) k) = ix2 a k := fun k =>
    funext fun d => Fin.ext (by match d with | ⟨0, _⟩ => rfl | ⟨1, _⟩ => rfl)
  have e3 : idx_main_v2 (idx_main_v3 (ix2 n a)) = ix1 a :=
    funext fun d => Fin.ext (by match d with | ⟨0, _⟩ => rfl)
  rw [val_main_v4_apply, val_main_v1_apply, val_main_v3_apply, val_main_v2_apply, e3]
  simp only [val_main_v0_apply, e1, e2]
  rfl

/-- The reference's two projections read at row `n`, feature `j`. -/
theorem ref_zx (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal)) (n : Fin 524288) (j : Fin 152) :
    val_main_v6 (F := Ideal) A0 A1 A2 A3 (ix2 n j) = zxRef A0 A1 A2 A3 n j := by
  have e1 : ∀ a : Fin 32, lidx_main_v6 (ix2 n j) a = ix2 n a := fun a =>
    funext fun d => Fin.ext (by match d with | ⟨0, _⟩ => rfl | ⟨1, _⟩ => rfl)
  have e2 : ∀ a : Fin 32, idx_main_v5 (ridx_main_v6 (ix2 n j) a) = ix2 j a := fun a =>
    funext fun d => Fin.ext (by match d with | ⟨0, _⟩ => rfl | ⟨1, _⟩ => rfl)
  rw [val_main_v6_apply]
  simp only [val_main_v5_apply, e1, e2, ref_u]
  rfl

/-- The gate slice. -/
theorem ref_z (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal)) (n : Fin 524288) (j : Fin 64) :
    val_main_v7 (F := Ideal) A0 A1 A2 A3 (ix2 n j) = zxRef A0 A1 A2 A3 n (zPos j) := by
  have e : idx_main_v7 (ix2 n j) = ix2 n (zPos j) :=
    funext fun d => Fin.ext (by match d with | ⟨0, _⟩ => rfl | ⟨1, _⟩ => rfl)
  rw [val_main_v7_apply, e, ref_zx]

/-- The float word of one is one. -/
theorem w1_eq : w1 = 1 := IdealRules.sign_bit.ideal_onePat .f32

/-- The pre-activation of the convolved feature `j` of row `n`: the feature times the last tap, plus the bias. -/
theorem ref_pre (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal)) (n : Fin 524288) (j : Fin 80) :
    val_main_v17 (F := Ideal) A0 A1 A2 A3 A4 A5 (ix2 n j)
      = zxRef A0 A1 A2 A3 n (convPos j) * A4 (ix2 j 1) + A5 (ix1 j) := by
  have e8 : idx_main_v8 (ix2 n j) = ix2 n (convPos j) :=
    funext fun d => Fin.ext (by match d with | ⟨0, _⟩ => rfl | ⟨1, _⟩ => rfl)
  have e13 : idx_main_v10 (idx_main_v11 (idx_main_v12 (idx_main_v13 (ix2 n j)))) = ix2 j 1 :=
    funext fun d => Fin.ext (by match d with | ⟨0, _⟩ => exact Nat.div_one _ | ⟨1, _⟩ => rfl)
  have e16 : idx_main_v15 (idx_main_v16 (ix2 n j)) = ix1 j :=
    funext fun d => Fin.ext (by match d with | ⟨0, _⟩ => rfl)
  rw [val_main_v17_apply, val_main_v14_apply, val_main_v8_apply, val_main_v13_apply, val_main_v12_apply,
    val_main_v11_apply, val_main_v10_apply, val_main_v16_apply, val_main_v15_apply, e8, e13, e16, ref_zx]
  rfl

/-- The convolved feature `j` of row `n`: the pre-activation through `x · σ(x)`, the quotient `1 / (1 + e^{-x})` being the logistic. -/
theorem ref_conv (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal)) (n : Fin 524288) (j : Fin 80) :
    val_main_v18 (F := Ideal) A0 A1 A2 A3 A4 A5 (ix2 n j)
      = conv (zxRef A0 A1 A2 A3 n) (fun j => A4 (ix2 j 1)) (fun j => A5 (ix1 j)) j := by
  rw [val_main_v18_apply, val_main_call0_v5_apply, val_main_call0_v4_apply, val_main_call0_cst_0_apply,
    val_main_call0_v3_apply, val_main_call0_v2_apply, val_main_call0_cst_apply, val_main_call0_v1_apply,
    val_main_call0_v0_apply, ref_pre]
  show _ * Ideal.div w1 (w1 + Ideal.exp (-_)) = _
  rw [w1_eq]
  rfl

/-- The step size of head `h` of row `n`: the printed `logaddexp t 0` over `t` = the step feature plus its bias. -/
theorem ref_step (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A6 : (⟨S8, .f32⟩ : BufTy).Contents (Elt Ideal)) (n : Fin 524288) (h : Fin 8) :
    val_main_v26 (F := Ideal) A0 A1 A2 A3 A6 (ix2 n h) = step (zxRef A0 A1 A2 A3 n) (fun h => A6 (ix1 h)) h := by
  have e9 : idx_main_v9 (ix2 n h) = ix2 n (stepPos h) :=
    funext fun d => Fin.ext (by match d with | ⟨0, _⟩ => rfl | ⟨1, _⟩ => rfl)
  have e24 : idx_main_v23 (idx_main_v24 (ix2 n h)) = ix1 h :=
    funext fun d => Fin.ext (by match d with | ⟨0, _⟩ => rfl)
  have et : val_main_v25 (F := Ideal) A0 A1 A2 A3 A6 (ix2 n h) = zxRef A0 A1 A2 A3 n (stepPos h) + A6 (ix1 h) := by
    rw [val_main_v25_apply, val_main_v9_apply, val_main_v24_apply, val_main_v23_apply, e9, e24, ref_zx]
    rfl
  rw [val_main_v26_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, et]
  exact softplus_host_form _

/-- `⟨B, C⟩` of row `n`: the sum over the eight state entries, taken from the zero word. -/
theorem ref_inner (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal)) (n : Fin 524288) :
    val_main_v28 (F := Ideal) A0 A1 A2 A3 A4 A5 (ix1 n)
      = inner (fun h' => conv (zxRef A0 A1 A2 A3 n) (fun j => A4 (ix2 j 1)) (fun j => A5 (ix1 j)) (bPos h'))
          (fun h' => conv (zxRef A0 A1 A2 A3 n) (fun j => A4 (ix2 j 1)) (fun j => A5 (ix1 j)) (cPos h')) := by
  have e28 : ∀ k : Fin 8, idx_main_v28 (ix1 n) k = ix2 n k := fun k =>
    funext fun d => Fin.ext (by match d with | ⟨0, _⟩ => rfl | ⟨1, _⟩ => rfl)
  have e21 : ∀ k : Fin 8, idx_main_v21 (ix2 n k) = ix2 n (bPos k) := fun k =>
    funext fun d => Fin.ext (by match d with | ⟨0, _⟩ => rfl | ⟨1, _⟩ => rfl)
  have e22 : ∀ k : Fin 8, idx_main_v22 (ix2 n k) = ix2 n (cPos k) := fun k =>
    funext fun d => Fin.ext (by match d with | ⟨0, _⟩ => rfl | ⟨1, _⟩ => rfl)
  rw [val_main_v28_apply, val_main_cst_apply]
  simp only [e28, val_main_v27_apply, val_main_v21_apply, val_main_v22_apply, e21, e22, ref_conv]
  show w0 + _ = _
  rw [w0_eq, zero_add]
  rfl

/-- Entry `(h, l)` of `xh` of row `n` after the cut of the 64 inner features into 8 heads of 8: inner feature `8 h + l`. -/
theorem ref_xh (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal)) (n : Fin 524288) (h l : Fin 8) (q : Fin 64) (hq : q.val = h.val * 8 + l.val) :
    val_main_v20 (F := Ideal) A0 A1 A2 A3 A4 A5 (ix3 n h l) = conv (zxRef A0 A1 A2 A3 n) (fun j => A4 (ix2 j 1)) (fun j => A5 (ix1 j)) (xhPos q) := by
  have e : idx_main_v19 (idx_main_v20 (ix3 n h l)) = ix2 n (xhPos q) :=
    funext fun d => Fin.ext (by
      have hn := n.isLt; have hh := h.isLt; have hl := l.isLt
      match d with
      | ⟨0, _⟩ => show ((n.val * 8 + h.val) * 8 + l.val) / 64 = n.val; omega
      | ⟨1, _⟩ => show ((n.val * 8 + h.val) * 8 + l.val) % 64 = q.val; omega)
  rw [val_main_v20_apply, val_main_v19_apply, e, ref_conv]

/-- The scale of head `h` of row `n`: the step size times `⟨B, C⟩`. -/
theorem ref_scale (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 : (⟨S8, .f32⟩ : BufTy).Contents (Elt Ideal)) (n : Fin 524288) (h : Fin 8) :
    val_main_v31 (F := Ideal) A0 A1 A2 A3 A4 A5 A6 (ix2 n h)
      = step (zxRef A0 A1 A2 A3 n) (fun h => A6 (ix1 h)) h
          * inner (fun h' => conv (zxRef A0 A1 A2 A3 n) (fun j => A4 (ix2 j 1)) (fun j => A5 (ix1 j)) (bPos h')) (fun h' => conv (zxRef A0 A1 A2 A3 n) (fun j => A4 (ix2 j 1)) (fun j => A5 (ix1 j)) (cPos h')) := by
  have e30 : idx_main_v29 (idx_main_v30 (ix2 n h)) = ix1 n :=
    funext fun d => Fin.ext (by match d with | ⟨0, _⟩ => rfl)
  rw [val_main_v31_apply, val_main_v30_apply, val_main_v29_apply, e30, ref_step, ref_inner]
  rfl

/-- The mix at row `n`, head `h`, entry `l`, before the heads are laid side by side again. -/
theorem ref_mix3 (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 A8 : (⟨S8, .f32⟩ : BufTy).Contents (Elt Ideal)) (n : Fin 524288) (h l : Fin 8) (q : Fin 64) (hq : q.val = h.val * 8 + l.val) :
    val_main_v38 (F := Ideal) A0 A1 A2 A3 A4 A5 A6 A8 (ix3 n h l)
      = conv (zxRef A0 A1 A2 A3 n) (fun j => A4 (ix2 j 1)) (fun j => A5 (ix1 j)) (xhPos q)
          * (step (zxRef A0 A1 A2 A3 n) (fun h => A6 (ix1 h)) h
              * inner (fun h' => conv (zxRef A0 A1 A2 A3 n) (fun j => A4 (ix2 j 1)) (fun j => A5 (ix1 j)) (bPos h')) (fun h' => conv (zxRef A0 A1 A2 A3 n) (fun j => A4 (ix2 j 1)) (fun j => A5 (ix1 j)) (cPos h')))
        + A8 (ix1 h) * conv (zxRef A0 A1 A2 A3 n) (fun j => A4 (ix2 j 1)) (fun j => A5 (ix1 j)) (xhPos q) := by
  have e33 : idx_main_v32 (idx_main_v33 (ix3 n h l)) = ix2 n h :=
    funext fun d => Fin.ext (by match d with | ⟨0, _⟩ => rfl | ⟨1, _⟩ => rfl)
  have e36 : idx_main_v35 (idx_main_v36 (ix3 n h l)) = ix1 h :=
    funext fun d => Fin.ext (by match d with | ⟨0, _⟩ => rfl)
  rw [val_main_v38_apply, val_main_v34_apply, val_main_v37_apply, val_main_v33_apply, val_main_v32_apply, e33,
    val_main_v36_apply, val_main_v35_apply, e36, ref_xh A0 A1 A2 A3 A4 A5 n h l q hq, ref_scale]
  rfl

/-- The reference's mix at row `n`, inner feature `j`: `xh · (dt_h · ⟨B, C⟩) + D_h · xh` with `h` the head of `j`. -/
theorem ref_mix (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 A8 : (⟨S8, .f32⟩ : BufTy).Contents (Elt Ideal)) (n : Fin 524288) (j : Fin 64) :
    val_main_v39 (F := Ideal) A0 A1 A2 A3 A4 A5 A6 A8 (ix2 n j)
      = mixR (fun j => conv (zxRef A0 A1 A2 A3 n) (fun j => A4 (ix2 j 1)) (fun j => A5 (ix1 j)) (xhPos j))
          (fun h => step (zxRef A0 A1 A2 A3 n) (fun h => A6 (ix1 h)) h
            * inner (fun h' => conv (zxRef A0 A1 A2 A3 n) (fun j => A4 (ix2 j 1)) (fun j => A5 (ix1 j)) (bPos h'))
                (fun h' => conv (zxRef A0 A1 A2 A3 n) (fun j => A4 (ix2 j 1)) (fun j => A5 (ix1 j)) (cPos h')))
          (fun h => A8 (ix1 h)) j := by
  have hj := j.isLt
  have e39 : idx_main_v39 (ix2 n j) = ix3 n (headOf j) (⟨j.val % 8, Nat.mod_lt _ (by decide)⟩ : Fin 8) :=
    funext fun d => Fin.ext (by
      have hn := n.isLt
      match d with
      | ⟨0, _⟩ => show (n.val * 64 + j.val) / 64 = n.val; omega
      | ⟨1, _⟩ => show (n.val * 64 + j.val) / 8 % 8 = j.val / 8; omega
      | ⟨2, _⟩ => show (n.val * 64 + j.val) % 8 = j.val % 8; omega)
  rw [val_main_v39_apply, e39,
    ref_mix3 A0 A1 A2 A3 A4 A5 A6 A8 n (headOf j) ⟨j.val % 8, Nat.mod_lt _ (by decide)⟩ j
      (by show j.val = j.val / 8 * 8 + j.val % 8; omega)]
  rfl

end Cert.RefRow

end
-- ==== Proof.RefTail.lean ====
import proofs.«158069_j36524401885833_1_alg».proof.Proof.RowSpec
import proofs.«158069_j36524401885833_1_alg».proof.Proof.RefRead
import Idealize.ShloMosaic.Lib.ValueIdx
import Idealize.ShloMosaic.Lib.Pipeline.Value
import Idealize.ShloMosaic.PureOps.Ideal.Laws
import Idealize.ShloMosaic.PureOps.IdealRules
import Idealize.ShloMosaic.PureOps.Reduce

noncomputable section

namespace Cert.RefRow

open Idealize.ShloMosaic Idealize.ShloMosaic.ValueIdx Cert.ReferenceIdeal Cert.ReferenceIdeal.ReadP Cert.RowSpec
open Cert.ReferenceIdeal.Gen

namespace Tail

/-- The word of the float one is the extended real one. -/
theorem w1_eq : w1 = 1 := IdealRules.sign_bit.ideal_onePat .f32

section
variable (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 A8 : (⟨S8, .f32⟩ : BufTy).Contents (Elt Ideal))
    (A9 : (⟨S64, .f32⟩ : BufTy).Contents (Elt Ideal)) (A10 : (⟨S32x64, .f32⟩ : BufTy).Contents (Elt Ideal))

/-- Row `n` of the mix. -/
def yRow (n : Fin 524288) : Fin 64 → EReal := fun j => val_main_v39 (F := Ideal) A0 A1 A2 A3 A4 A5 A6 A8 (ix2 n j)
/-- Row `n` of the gate. -/
def zRow (n : Fin 524288) : Fin 64 → EReal := fun j => val_main_v7 (F := Ideal) A0 A1 A2 A3 (ix2 n j)
/-- Row `n` of the gated mix. -/
def gRow (n : Fin 524288) : Fin 64 → EReal := gated (yRow A0 A1 A2 A3 A4 A5 A6 A8 n) (zRow A0 A1 A2 A3 n)
/-- Row `n` of the logits. -/
def oRow (n : Fin 524288) : Fin 32 → EReal :=
  logits (gRow A0 A1 A2 A3 A4 A5 A6 A8 n) (fun j => A9 (ix1 j)) (fun j q => A10 (ix2 q j))

/-- The gate through `silu`: `z · (1 / (1 + e^{-z}))`. -/
theorem v40_at (i : S524288x64.Idx) :
    val_main_v40 (F := Ideal) A0 A1 A2 A3 i = silu (val_main_v7 (F := Ideal) A0 A1 A2 A3 i) := by
  rw [val_main_v40_apply, val_main_call2_v5_apply, val_main_call2_v4_apply, val_main_call2_cst_0_apply,
    val_main_call2_v3_apply, val_main_call2_v2_apply, val_main_call2_cst_apply, val_main_call2_v1_apply,
    val_main_call2_v0_apply]
  show _ * Ideal.div w1 (w1 + Ideal.exp (-_)) = _
  rw [w1_eq]
  rfl

/-- The gated mix at (n, j). -/
theorem v41_at (n : Fin 524288) (j : Fin 64) :
    val_main_v41 (F := Ideal) A0 A1 A2 A3 A4 A5 A6 A8 (ix2 n j) = gRow A0 A1 A2 A3 A4 A5 A6 A8 n j := by
  rw [val_main_v41_apply, v40_at]
  rfl

/-- The sum of squares of row `n`. -/
theorem v43_at (n : Fin 524288) :
    val_main_v43 (F := Ideal) A0 A1 A2 A3 A4 A5 A6 A8 (ix1 n) = ∑ j : Fin 64, gRow A0 A1 A2 A3 A4 A5 A6 A8 n j * gRow A0 A1 A2 A3 A4 A5 A6 A8 n j := by
  rw [val_main_v43_apply, val_main_cst_0_apply]
  show w0 + _ = _
  rw [w0_eq, zero_add]
  refine Finset.sum_congr rfl fun k _ => ?_
  have e : idx_main_v43 (ix1 n) k = ix2 n k :=
    funext fun a => Fin.ext (by match a with | ⟨0, _⟩ => rfl | ⟨1, _⟩ => rfl)
  rw [e, val_main_v42_apply, v41_at]
  rfl

/-- The reciprocal root mean square of row `n`, spread along the row. -/
theorem v50_at (n : Fin 524288) (j : Fin 64) :
    val_main_v50 (F := Ideal) A0 A1 A2 A3 A4 A5 A6 A8 (ix2 n j) = rnorm (gRow A0 A1 A2 A3 A4 A5 A6 A8 n) := by
  rw [val_main_v50_apply, val_main_v49_apply, val_main_v48_apply, val_main_v47_apply, val_main_cst_2_apply,
    val_main_v46_apply, val_main_v45_apply, val_main_cst_1_apply, val_main_v44_apply]
  have e : idx_main_v44 (idx_main_v50 (ix2 n j)) = ix1 n :=
    funext fun a => Fin.ext (by match a with | ⟨0, _⟩ => rfl)
  rw [e, v43_at]
  rfl

/-- The normalised, scaled row at (n, j). -/
theorem v54_at (n : Fin 524288) (j : Fin 64) :
    val_main_v54 (F := Ideal) A0 A1 A2 A3 A4 A5 A6 A8 A9 (ix2 n j)
      = gRow A0 A1 A2 A3 A4 A5 A6 A8 n j * rnorm (gRow A0 A1 A2 A3 A4 A5 A6 A8 n) * A9 (ix1 j) := by
  rw [val_main_v54_apply, val_main_v51_apply, v41_at, v50_at, val_main_v53_apply, val_main_v52_apply]
  have e : idx_main_v52 (idx_main_v53 (ix2 n j)) = ix1 j :=
    funext fun a => Fin.ext (by match a with | ⟨0, _⟩ => rfl)
  rw [e]
  rfl

/-- The transposed projection weights at (j, q). -/
theorem v55_at (j : Fin 64) (q : Fin 32) : val_main_v55 (F := Ideal) A10 (ix2 j q) = A10 (ix2 q j) := by
  rw [val_main_v55_apply]
  exact congrArg A10 (funext fun a => Fin.ext (by match a with | ⟨0, _⟩ => rfl | ⟨1, _⟩ => rfl))

/-- The logits at (n, q). -/
theorem v56_at (n : Fin 524288) (q : Fin 32) :
    val_main_v56 (F := Ideal) A0 A1 A2 A3 A4 A5 A6 A8 A9 A10 (ix2 n q) = oRow A0 A1 A2 A3 A4 A5 A6 A8 A9 A10 n q := by
  rw [val_main_v56_apply]
  show _ = ∑ j : Fin 64, (gRow A0 A1 A2 A3 A4 A5 A6 A8 n j * rnorm (gRow A0 A1 A2 A3 A4 A5 A6 A8 n) * A9 (ix1 j)) * A10 (ix2 q j)
  refine Finset.sum_congr rfl fun k _ => ?_
  have el : lidx_main_v56 (ix2 n q) k = ix2 n k :=
    funext fun a => Fin.ext (by match a with | ⟨0, _⟩ => rfl | ⟨1, _⟩ => rfl)
  have er : ridx_main_v56 (ix2 n q) k = ix2 k q :=
    funext fun a => Fin.ext (by match a with | ⟨0, _⟩ => rfl | ⟨1, _⟩ => rfl)
  rw [el, er, v54_at, v55_at]

/-- The reduced index `n` with the logit `k` put back is (n, k). -/
theorem lift_at (h : S524288x32.Reduces [1] S524288) (n : Fin 524288) (k : Fin (S524288x32.size 1)) :
    h.lift (ix1 n) k = ix2 n (⟨k.val, k.isLt⟩ : Fin 32) :=
  funext fun a => Fin.ext (by match a with | ⟨0, _⟩ => rfl | ⟨1, _⟩ => rfl)

/-- The maximum of row `n` of the logits, taken from `-∞`. -/
theorem v57_at (n : Fin 524288) :
    val_main_v57 (F := Ideal) A0 A1 A2 A3 A4 A5 A6 A8 A9 A10 (ix1 n)
      = (Finset.univ : Finset (Fin 32)).fold max wNegInf (oRow A0 A1 A2 A3 A4 A5 A6 A8 A9 A10 n) := by
  have h : S524288x32.Reduces [1] S524288 := by decide
  unfold val_main_v57
  rw [Host.reduce_eq_fold_single FloatOps.maximumf _ _ reducesTo_S524288x32_S524288_d1 h h_S_]
  have hf : (val_main_v56 (F := Ideal) A0 A1 A2 A3 A4 A5 A6 A8 A9 A10 ∘ h.lift (ix1 n)) = fun k : Fin 32 => oRow A0 A1 A2 A3 A4 A5 A6 A8 A9 A10 n k :=
    funext fun k => by
      show val_main_v56 (F := Ideal) A0 A1 A2 A3 A4 A5 A6 A8 A9 A10 (h.lift (ix1 n) k) = _
      rw [lift_at h n k, v56_at]
      rfl
  exact congrArg (fun f => Finset.fold max wNegInf f (Finset.univ : Finset (Fin 32))) hf

/-- The row maximum the softmax subtracts. -/
theorem v59_at (n : Fin 524288) :
    val_main_v59 (F := Ideal) A0 A1 A2 A3 A4 A5 A6 A8 A9 A10 (ix1 n) = rowMax (oRow A0 A1 A2 A3 A4 A5 A6 A8 A9 A10 n) := by
  rw [val_main_v59_apply, val_main_v58_apply, val_main_cst_4_apply, v57_at]
  rfl

/-- The row maximum spread along the row. -/
theorem v61_at (n : Fin 524288) (q : Fin 32) :
    val_main_v61 (F := Ideal) A0 A1 A2 A3 A4 A5 A6 A8 A9 A10 (ix2 n q) = rowMax (oRow A0 A1 A2 A3 A4 A5 A6 A8 A9 A10 n) := by
  rw [val_main_v61_apply, val_main_v60_apply]
  have e : idx_main_v60 (idx_main_v61 (ix2 n q)) = ix1 n :=
    funext fun a => Fin.ext (by match a with | ⟨0, _⟩ => rfl)
  rw [e, v59_at]

/-- The exponential of the shifted logit at (n, q). -/
theorem v63_at (n : Fin 524288) (q : Fin 32) :
    val_main_v63 (F := Ideal) A0 A1 A2 A3 A4 A5 A6 A8 A9 A10 (ix2 n q)
      = Ideal.exp (oRow A0 A1 A2 A3 A4 A5 A6 A8 A9 A10 n q - rowMax (oRow A0 A1 A2 A3 A4 A5 A6 A8 A9 A10 n)) := by
  rw [val_main_v63_apply, val_main_v62_apply, v56_at, v61_at]
  rfl

/-- The sum of the exponentials of row `n`. -/
theorem v64_at (n : Fin 524288) :
    val_main_v64 (F := Ideal) A0 A1 A2 A3 A4 A5 A6 A8 A9 A10 (ix1 n)
      = ∑ q' : Fin 32, Ideal.exp (oRow A0 A1 A2 A3 A4 A5 A6 A8 A9 A10 n q' - rowMax (oRow A0 A1 A2 A3 A4 A5 A6 A8 A9 A10 n)) := by
  rw [val_main_v64_apply, val_main_cst_5_apply]
  show w0 + _ = _
  rw [w0_eq, zero_add]
  refine Finset.sum_congr rfl fun k _ => ?_
  have e : idx_main_v64 (ix1 n) k = ix2 n k :=
    funext fun a => Fin.ext (by match a with | ⟨0, _⟩ => rfl | ⟨1, _⟩ => rfl)
  rw [e, v63_at]

/-- That sum spread along the row. -/
theorem v66_at (n : Fin 524288) (q : Fin 32) :
    val_main_v66 (F := Ideal) A0 A1 A2 A3 A4 A5 A6 A8 A9 A10 (ix2 n q)
      = ∑ q' : Fin 32, Ideal.exp (oRow A0 A1 A2 A3 A4 A5 A6 A8 A9 A10 n q' - rowMax (oRow A0 A1 A2 A3 A4 A5 A6 A8 A9 A10 n)) := by
  rw [val_main_v66_apply, val_main_v65_apply]
  have e : idx_main_v65 (idx_main_v66 (ix2 n q)) = ix1 n :=
    funext fun a => Fin.ext (by match a with | ⟨0, _⟩ => rfl)
  rw [e, v64_at]

/-- The softmax of the logits at (n, q). -/
theorem v67_at (n : Fin 524288) (q : Fin 32) :
    val_main_v67 (F := Ideal) A0 A1 A2 A3 A4 A5 A6 A8 A9 A10 (ix2 n q) = softmax (oRow A0 A1 A2 A3 A4 A5 A6 A8 A9 A10 n) q := by
  rw [val_main_v67_apply, v63_at, v66_at]
  rfl

end

end Tail

/-- Everything the reference does after the mix — gate by `silu z`, normalise by the root mean square, scale, project
    to the logits, softmax — at row `n`, logit `q`, over the mix and the gate of that row. -/
theorem ref_tail (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 A8 : (⟨S8, .f32⟩ : BufTy).Contents (Elt Ideal))
    (A9 : (⟨S64, .f32⟩ : BufTy).Contents (Elt Ideal)) (A10 : (⟨S32x64, .f32⟩ : BufTy).Contents (Elt Ideal)) (n : Fin 524288) (q : Fin 32) :
    val_main_v67 (F := Ideal) A0 A1 A2 A3 A4 A5 A6 A8 A9 A10 (ix2 n q)
      = tail (fun j => val_main_v39 (F := Ideal) A0 A1 A2 A3 A4 A5 A6 A8 (ix2 n j))
          (fun j => val_main_v7 (F := Ideal) A0 A1 A2 A3 (ix2 n j))
          (fun j => A9 (ix1 j)) (fun j q => A10 (ix2 q j)) q := by
  rw [Tail.v67_at]
  rfl

end Cert.RefRow

end
-- ==== Proof.RefRow.lean ====
/-
  The reference's result at `(n, q)`: its row function of row `n` of the first argument and of the weights (which it
  transposes itself).  The two halves of the program are read separately (the projections and the mix; then gate,
  normalisation, projection and softmax over the mix and the gate of the row); here they are put together.
-/
import proofs.«158069_j36524401885833_1_alg».proof.Proof.RefProj
import proofs.«158069_j36524401885833_1_alg».proof.Proof.RefTail

noncomputable section

namespace Cert.RefRow

open Idealize.ShloMosaic Idealize.ShloMosaic.ValueIdx Cert.ReferenceIdeal Cert.ReferenceIdeal.ReadP Cert.RowSpec

theorem ref_row (A0 : (⟨S524288x36, .f32⟩ : BufTy).Contents (Elt Ideal)) (A1 : (⟨S32x36, .f32⟩ : BufTy).Contents (Elt Ideal))
    (A2 : (⟨S32, .f32⟩ : BufTy).Contents (Elt Ideal)) (A3 : (⟨S152x32, .f32⟩ : BufTy).Contents (Elt Ideal))
    (A4 : (⟨S80x2, .f32⟩ : BufTy).Contents (Elt Ideal)) (A5 : (⟨S80, .f32⟩ : BufTy).Contents (Elt Ideal))
    (A6 A8 : (⟨S8, .f32⟩ : BufTy).Contents (Elt Ideal))
    (A9 : (⟨S64, .f32⟩ : BufTy).Contents (Elt Ideal)) (A10 : (⟨S32x64, .f32⟩ : BufTy).Contents (Elt Ideal)) (n : Fin 524288) (q : Fin 32) :
    val_main_v67 (F := Ideal) A0 A1 A2 A3 A4 A5 A6 A8 A9 A10 (ix2 n q)
      = rowR (fun k => A0 (ix2 n k)) (fun k a => A1 (ix2 a k)) (fun a => A2 (ix1 a)) (fun a j => A3 (ix2 j a))
          (fun j => A4 (ix2 j 1)) (fun j => A5 (ix1 j)) (fun h => A6 (ix1 h)) (fun h => A8 (ix1 h))
          (fun j => A9 (ix1 j)) (fun j q => A10 (ix2 q j)) q := by
  rw [ref_tail]
  unfold rowR
  simp only [ref_mix, ref_z]

end Cert.RefRow

end
-- ==== Proof.RowBridge.lean ====
/-
  The one law that joins the two rows.  The kernel forms `xh_j · (Σ_h s_h · E_{h,j} + D'_j)` and the reference
  `xh_j · s_{h(j)} + D_{h(j)} · xh_j`, where `h(j)` is the head of feature `j`, `E_{h,j}` is one when `h = h(j)` and zero
  otherwise, and `D'_j = D_{h(j)}`.  The sum over `h` keeps its one non-zero term; what is left is
  `x · (s + d) = x · s + d · x`, which holds on the extended reals when the three are real numbers.  They are: with
  real inputs the two projections are finite sums of products of reals; `silu` of a real is the real times a real
  logistic value; `softplus` of a real is a real maximum plus the logarithm of `1 + e^{-|t|}`, a real above one.
-/
import proofs.«158069_j36524401885833_1_alg».proof.Proof.RowSpec

noncomputable section

namespace Cert.RowSpec

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact (hf a).add ih

/-- `silu` of a real number is a real number. -/
theorem IsReal.silu {x : EReal} (hx : IsReal x) : IsReal (silu x) := by
  obtain ⟨a, rfl⟩ := hx
  unfold RowSpec.silu
  rw [Ideal.logistic_coe]
  exact ⟨a * (1 + Real.exp (-a))⁻¹, (EReal.coe_mul _ _).symm⟩

/-- `softplus` of a real number is a real number: `1 + e^{-|t|}` is a real above zero, so its logarithm is real. -/
theorem IsReal.softplus {x : EReal} (hx : IsReal x) : IsReal (softplus x) := by
  obtain ⟨a, rfl⟩ := hx
  unfold RowSpec.softplus
  have h1 : max (a : EReal) 0 = ((max a 0 : ℝ) : EReal) := by
    rw [← EReal.coe_zero]; exact (EReal.coe_strictMono.monotone.map_max (a := a) (b := 0)).symm
  have h2 : -(max (a : EReal) (-(a : EReal))) = ((-(max a (-a)) : ℝ) : EReal) := by
    rw [← EReal.coe_neg, ← EReal.coe_strictMono.monotone.map_max (a := a) (b := -a), ← EReal.coe_neg]
  have hpos : ¬ (1 + Real.exp (-(max a (-a))) ≤ 0) := not_le.mpr (by positivity)
  have h3 : Ideal.log1p (Ideal.exp ((-(max a (-a)) : ℝ) : EReal)) = ((Real.log (1 + Real.exp (-(max a (-a)))) : ℝ) : EReal) := by
    rw [Ideal.exp_coe]
    unfold Ideal.log1p
    rw [← EReal.coe_one, ← EReal.coe_add, Ideal.log_coe, if_neg hpos]
  rw [h1, h2, h3]
  exact ⟨max a 0 + Real.log (1 + Real.exp (-(max a (-a)))), (EReal.coe_add _ _).symm⟩

/-- On real numbers the product distributes over the sum. -/
theorem mul_add_real {x s d : EReal} (hx : IsReal x) (hs : IsReal s) (hd : IsReal d) :
    x * (s + d) = x * s + d * x := by
  obtain ⟨a, rfl⟩ := hx; obtain ⟨b, rfl⟩ := hs; obtain ⟨c, rfl⟩ := hd
  rw [← EReal.coe_add, ← EReal.coe_mul, ← EReal.coe_mul, ← EReal.coe_mul, ← EReal.coe_add]
  congr 1; ring

/-- The spread of the head scales by the 0/1 matrix keeps the scale of the feature's own head. -/
theorem sum_spread (s : Fin 8 → EReal) (Em : Fin 8 → Fin 64 → EReal) (j : Fin 64)
    (hE : ∀ h j, Em h j = if h = headOf j then (1 : EReal) else 0) :
    (∑ h : Fin 8, s h * Em h j) = s (headOf j) := by
  rw [Finset.sum_eq_single (headOf j)]
  · rw [hE, if_pos rfl, mul_one]
  · intro h _ hne; rw [hE, if_neg hne, mul_zero]
  · intro hn; exact absurd (Finset.mem_univ _) hn

/-- The two mixes agree when `xh`, the head scales and the skip weights are real. -/
theorem mixK_eq_mixR (xh : Fin 64 → EReal) (s : Fin 8 → EReal) (Em : Fin 8 → Fin 64 → EReal) (Dx : Fin 64 → EReal)
    (D : Fin 8 → EReal) (hE : ∀ h j, Em h j = if h = headOf j then (1 : EReal) else 0) (hD : ∀ j, Dx j = D (headOf j))
    (hxh : ∀ j, IsReal (xh j)) (hs : ∀ h, IsReal (s h)) (hDr : ∀ h, IsReal (D h)) (j : Fin 64) :
    mixK xh s Em Dx j = mixR xh s D j := by
  unfold mixK mixR
  rw [sum_spread s Em j hE, hD j]
  exact mul_add_real (hxh j) (hs _) (hDr _)

section
variable (x : Fin 36 → EReal) (W1 : Fin 36 → Fin 32 → EReal) (b1 : Fin 32 → EReal) (W2 : Fin 32 → Fin 152 → EReal)
  (cw cb : Fin 80 → EReal) (dtb : Fin 8 → EReal)
  (hx : ∀ k, IsReal (x k)) (hW1 : ∀ k a, IsReal (W1 k a)) (hb1 : ∀ a, IsReal (b1 a)) (hW2 : ∀ a j, IsReal (W2 a j))
  (hcw : ∀ j, IsReal (cw j)) (hcb : ∀ j, IsReal (cb j)) (hdtb : ∀ h, IsReal (dtb h))

include hx hW1 hb1 in
theorem isReal_proj1 (a : Fin 32) : IsReal (proj1 x W1 b1 a) :=
  (IsReal.sum _ _ fun k => (hx k).mul (hW1 k a)).add (hb1 a)

include hx hW1 hb1 hW2 in
theorem isReal_proj2 (j : Fin 152) : IsReal (proj2 (proj1 x W1 b1) W2 j) :=
  IsReal.sum _ _ fun a => (isReal_proj1 x W1 b1 hx hW1 hb1 a).mul (hW2 a j)

include hx hW1 hb1 hW2 hcw hcb in
theorem isReal_conv (j : Fin 80) : IsReal (conv (proj2 (proj1 x W1 b1) W2) cw cb j) :=
  (((isReal_proj2 x W1 b1 W2 hx hW1 hb1 hW2 _).mul (hcw j)).add (hcb j)).silu

include hx hW1 hb1 hW2 hdtb in
theorem isReal_step (h : Fin 8) : IsReal (step (proj2 (proj1 x W1 b1) W2) dtb h) :=
  ((isReal_proj2 x W1 b1 W2 hx hW1 hb1 hW2 _).add (hdtb h)).softplus

end

/-- The kernel's row is the reference's row when the inputs the mix depends on are real, `E` is the 0/1 matrix of the
    heads and `D'` the skip weights repeated per head. -/
theorem rowK_eq_rowR (x : Fin 36 → EReal) (W1 : Fin 36 → Fin 32 → EReal) (b1 : Fin 32 → EReal) (W2 : Fin 32 → Fin 152 → EReal)
    (cw cb : Fin 80 → EReal) (dtb : Fin 8 → EReal) (Em : Fin 8 → Fin 64 → EReal) (Dx : Fin 64 → EReal) (D : Fin 8 → EReal)
    (nw : Fin 64 → EReal) (W3 : Fin 64 → Fin 32 → EReal)
    (hE : ∀ h j, Em h j = if h = headOf j then (1 : EReal) else 0) (hD : ∀ j, Dx j = D (headOf j))
    (hx : ∀ k, IsReal (x k)) (hW1 : ∀ k a, IsReal (W1 k a)) (hb1 : ∀ a, IsReal (b1 a)) (hW2 : ∀ a j, IsReal (W2 a j))
    (hcw : ∀ j, IsReal (cw j)) (hcb : ∀ j, IsReal (cb j)) (hdtb : ∀ h, IsReal (dtb h)) (hDr : ∀ h, IsReal (D h)) (q : Fin 32) :
    rowK x W1 b1 W2 cw cb dtb Em Dx nw W3 q = rowR x W1 b1 W2 cw cb dtb D nw W3 q := by
  unfold rowK rowR
  congr 1
  funext j
  refine mixK_eq_mixR _ _ Em Dx D hE hD (fun j => isReal_conv x W1 b1 W2 cw cb hx hW1 hb1 hW2 hcw hcb _) (fun h => ?_) hDr j
  refine (isReal_step x W1 b1 W2 dtb hx hW1 hb1 hW2 hdtb h).mul ?_
  exact IsReal.sum _ _ fun h' => (isReal_conv x W1 b1 W2 cw cb hx hW1 hb1 hW2 hcw hcb _).mul (isReal_conv x W1 b1 W2 cw cb hx hW1 hb1 hW2 hcw hcb _)

end Cert.RowSpec

end
-- ==== Proof.FiniteArgs.lean ====
import proofs.«158069_j36524401885833_1_alg».proof.Defs
import Idealize.ShloMosaic.Lib.ValueIdx
import Idealize.ShloMosaic.Lib.ReduceAll
import Idealize.ShloMosaic.PureOps.Ideal.Laws

noncomputable section

namespace Cert.FiniteArgs

open Idealize.ShloMosaic Idealize.ShloMosaic.ValueIdx Idealize.SL.Sem Cert.KernelIdeal

/-- The rank-0 shape has one index. -/
instance : Subsingleton Cert.Pre_finite_inputs.S_.Idx := ⟨fun a b => funext fun d => d.elim0⟩

/-- The float word `0x7F800000` is `+∞`. -/
theorem inf_word : Ideal.ofBits .f32 0x7F800000#32 = (⊤ : EReal) := by
  simp [Ideal.ofBits, Ideal.ieee]

/-- An extended real whose absolute value `max x (-x)` is below `+∞` is a real: at `⊥` and at `⊤` that maximum is `⊤`. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- If the conjunction over all entries of `|x i| < +∞` is one, every entry of `x` is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x)
          (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, (x : s.Idx → EReal) i = (r : EReal) := by
  intro i
  have h1 := Host.reduce_andi_all _ _ hr hu _ e i
  have h2 : Ideal.cmp .olt (max (x i) (-(x i))) (Ideal.ofBits .f32 0x7F800000#32) = 1#1 := h1
  rw [inf_word] at h2
  exact real_of_abs_lt _ h2

variable [hP : Cert.Pre_finite_inputs.Facts]

/-- Under the precondition every entry of every argument the mix depends on is a real number: the precondition is the
    conjunction, over the eleven arguments, of "every entry's absolute value is below `+∞`". -/
theorem real_of_pre (m : (ℓ : Loc nD τ sig) → Buf (Elt Ideal) ℓ) (hpre : Cert.Pre_KernelIdeal m) (c : Dev nD) :
    (∀ i, ∃ r : ℝ, (m ((c.tc : Thread nD τ).loc main_arg0) : S524288x36.Idx → EReal) i = (r : EReal))
    ∧ (∀ i, ∃ r : ℝ, (m ((c.tc : Thread nD τ).loc main_arg1) : S32x36.Idx → EReal) i = (r : EReal))
    ∧ (∀ i, ∃ r : ℝ, (m ((c.tc : Thread nD τ).loc main_arg2) : S32.Idx → EReal) i = (r : EReal))
    ∧ (∀ i, ∃ r : ℝ, (m ((c.tc : Thread nD τ).loc main_arg3) : S152x32.Idx → EReal) i = (r : EReal))
    ∧ (∀ i, ∃ r : ℝ, (m ((c.tc : Thread nD τ).loc main_arg4) : S80x2.Idx → EReal) i = (r : EReal))
    ∧ (∀ i, ∃ r : ℝ, (m ((c.tc : Thread nD τ).loc main_arg5) : S80.Idx → EReal) i = (r : EReal))
    ∧ (∀ i, ∃ r : ℝ, (m ((c.tc : Thread nD τ).loc main_arg6) : S8.Idx → EReal) i = (r : EReal))
    ∧ (∀ i, ∃ r : ℝ, (m ((c.tc : Thread nD τ).loc main_arg8) : S8.Idx → EReal) i = (r : EReal)) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h48, h52⟩ := IntOp.andi_eq_one.1 h
  obtain ⟨h43, h47⟩ := IntOp.andi_eq_one.1 h48
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨real_of_all _ _ _ _ h3, real_of_all _ _ _ _ h7, real_of_all _ _ _ _ h12, real_of_all _ _ _ _ h17,
    real_of_all _ _ _ _ h22, real_of_all _ _ _ _ h27, real_of_all _ _ _ _ h32, real_of_all _ _ _ _ h42⟩

end Cert.FiniteArgs

end
-- ==== Proof.lean ====
/-
  The certificate of the gated state-space block: a Pallas kernel that sweeps 524288 independent rows in 64 blocks of
  8192 against the plain jnp program.  Both compute, row by row, two projections, a last-tap convolution through
  `silu`, a one-step selective scan from a zero state, a gated root-mean-square normalisation, a projection to 32
  logits and their softmax.  They differ in one place: the kernel spreads the eight head scales over the 64 inner
  features by a 0/1 matrix product and adds the (repeated) skip weight before multiplying by `xh`, the reference
  multiplies `xh` by the head's scale and adds the skip weight times `xh`.  On the extended reals the two agree by
  distributivity once the entries involved are real numbers, which the precondition (every input finite) gives.
  The frames of the two kernel programs are the generated ones; the reference's frame is its run with the result
  dropped; the idealization rewrote nothing, so `preserves` is `True`.
-/
import proofs.«158069_j36524401885833_1_alg».proof.Defs
import proofs.«158069_j36524401885833_1_alg».proof.Proof.Gen.Kernel
import proofs.«158069_j36524401885833_1_alg».proof.Proof.Gen.Kernel.Skeleton
import proofs.«158069_j36524401885833_1_alg».proof.Proof.Gen.Kernel.Launch
import proofs.«158069_j36524401885833_1_alg».proof.Proof.Gen.Kernel.Points
import proofs.«158069_j36524401885833_1_alg».proof.Proof.Gen.Kernel.Frame
import proofs.«158069_j36524401885833_1_alg».proof.Proof.Gen.KernelIdeal
import proofs.«158069_j36524401885833_1_alg».proof.Proof.Gen.KernelIdeal.Skeleton
import proofs.«158069_j36524401885833_1_alg».proof.Proof.Gen.KernelIdeal.Launch
import proofs.«158069_j36524401885833_1_alg».proof.Proof.Gen.KernelIdeal.Points
import proofs.«158069_j36524401885833_1_alg».proof.Proof.Gen.KernelIdeal.Frame
import proofs.«158069_j36524401885833_1_alg».proof.Proof.Gen.ReferenceIdeal
import proofs.«158069_j36524401885833_1_alg».proof.Proof.Gen.Pre_finite_inputs
import proofs.«158069_j36524401885833_1_alg».proof.Proof.Gen.KernelIdeal.Value
import proofs.«158069_j36524401885833_1_alg».proof.Proof.KernelValue
import proofs.«158069_j36524401885833_1_alg».proof.Proof.RefRow
import proofs.«158069_j36524401885833_1_alg».proof.Proof.RowBridge
import proofs.«158069_j36524401885833_1_alg».proof.Proof.FiniteArgs
import Idealize.ShloMosaic.Adequacy
import Idealize.ShloMosaic.Init

noncomputable section

namespace Cert.Proof

open Idealize.ShloMosaic Idealize.ShloMosaic.ValueIdx Idealize.SL.Sem Cert.RowSpec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the kernel's row function of the arguments at every index: the kernel by its blocks, the
    reference because its own row function is the kernel's wherever the inputs are real numbers. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  obtain ⟨r0, r1, r2, r3, r4, r5, r6, r8⟩ := Cert.FiniteArgs.real_of_pre m hpre c
  rw [Cert.ReferenceIdeal.ReadP.val_main_v67_eq, a0, a1, a2, a3, a4, a5, a6, a8, a9, a10]
  funext i
  obtain ⟨n, q, rfl⟩ : ∃ (n : Fin 524288) (q : Fin 32), i = ix2 n q := ⟨i 0, i 1, eq_ix2 i⟩
  refine (Cert.RefRow.ref_row _ _ _ _ _ _ _ _ _ _ n q).trans ?_
  unfold Cert.KernelValue.result
  exact (rowK_eq_rowR _ _ _ _ _ _ _ _ _ _ _ _ (fun _ _ => rfl) (fun _ => rfl)
    (fun k => r0 _) (fun k a => r1 _) (fun a => r2 _) (fun a j => r3 _) (fun j => r4 _) (fun j => r5 _) (fun h => r6 _)
    (fun h => r8 _) q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
